-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel

variable [Facts]

def fn_part1 {F : FTy → Type} [FloatOps F] (main_arg4 : FVec F S2x8x2048x64 .f32) (main_arg5 : FVec F S2x8x2048x64 .f32) (main_v13 : IVec S_ 1) (main_v16 : IVec S2x8x2048x64 1) : IVec S_ 1 :=
  let main_c_5 : IVec S_ 1 := constantI S_ 1 1#1
  let main_v17 : IVec S_ 1 := (fun x v => Host.reduce IntOp.andi x v reducesTo_S2x8x2048x64_S_d0_1_2_3 h_S_) main_v16 main_c_5
  let main_v18 : IVec S_ 1 := andi main_v13 main_v17
  let main_v19 : FVec F S2x8x2048x64 .f32 := Host.absf main_arg4
  let main_cst_6 : FVec F S_ .f32 := constant S_ .f32 0x7F800000#32
  let main_v20 : FVec F S2x8x2048x64 .f32 := broadcastInDim S2x8x2048x64 ![] bcast_S_S2x8x2048x64 main_cst_6
  let main_v21 : IVec S2x8x2048x64 1 := cmpf .olt main_v19 main_v20
  let main_c_7 : IVec S_ 1 := constantI S_ 1 1#1
  let main_v22 : IVec S_ 1 := (fun x v => Host.reduce IntOp.andi x v reducesTo_S2x8x2048x64_S_d0_1_2_3 h_S_) main_v21 main_c_7
  let main_v23 : IVec S_ 1 := andi main_v18 main_v22
  let main_v24 : FVec F S2x8x2048x64 .f32 := Host.absf main_arg5
  let main_cst_8 : FVec F S_ .f32 := constant S_ .f32 0x7F800000#32
  let main_v25 : FVec F S2x8x2048x64 .f32 := broadcastInDim S2x8x2048x64 ![] bcast_S_S2x8x2048x64 main_cst_8
  let main_v26 : IVec S2x8x2048x64 1 := cmpf .olt main_v24 main_v25
  let main_c_9 : IVec S_ 1 := constantI S_ 1 1#1
  let main_v27 : IVec S_ 1 := (fun x v => Host.reduce IntOp.andi x v reducesTo_S2x8x2048x64_S_d0_1_2_3 h_S_) main_v26 main_c_9
  let main_v28 : IVec S_ 1 := andi main_v23 main_v27
  main_v28

def fn {F : FTy → Type} [FloatOps F] (main_arg0 : FVec F S2x8x2048x64 .f32) (main_arg1 : FVec F S2x8x2048x64 .f32) (main_arg2 : FVec F S2x8x2048x64 .f32) (main_arg3 : FVec F S2x8x2048x64 .f32) (main_arg4 : FVec F S2x8x2048x64 .f32) (main_arg5 : FVec F S2x8x2048x64 .f32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  let main_v9 : FVec F S2x8x2048x64 .f32 := Host.absf main_arg2
  let main_cst_2 : FVec F S_ .f32 := constant S_ .f32 0x7F800000#32
  let main_v10 : FVec F S2x8x2048x64 .f32 := broadcastInDim S2x8x2048x64 ![] bcast_S_S2x8x2048x64 main_cst_2
  let main_v11 : IVec S2x8x2048x64 1 := cmpf .olt main_v9 main_v10
  let main_c_3 : IVec S_ 1 := constantI S_ 1 1#1
  let main_v12 : IVec S_ 1 := (fun x v => Host.reduce IntOp.andi x v reducesTo_S2x8x2048x64_S_d0_1_2_3 h_S_) main_v11 main_c_3
  let main_v13 : IVec S_ 1 := andi main_v8 main_v12
  let main_v14 : FVec F S2x8x2048x64 .f32 := Host.absf main_arg3
  let main_cst_4 : FVec F S_ .f32 := constant S_ .f32 0x7F800000#32
  let main_v15 : FVec F S2x8x2048x64 .f32 := broadcastInDim S2x8x2048x64 ![] bcast_S_S2x8x2048x64 main_cst_4
  let main_v16 : IVec S2x8x2048x64 1 := cmpf .olt main_v14 main_v15
  fn_part1 (F := F) main_arg4 main_arg5 main_v13 main_v16
-- ==== Kernel.lean ====
abbrev S2x8x2048x64 : Shape := ⟨4, ![2, 8, 2048, 64]⟩
abbrev S16x2048x64 : Shape := ⟨3, ![16, 2048, 64]⟩
abbrev S16x2048x2048 : Shape := ⟨3, ![16, 2048, 2048]⟩
abbrev S2x16x2048x64 : Shape := ⟨4, ![2, 16, 2048, 64]⟩
abbrev S1x256x64 : Shape := ⟨3, ![1, 256, 64]⟩
abbrev S1x2048x64 : Shape := ⟨3, ![1, 2048, 64]⟩
abbrev S1x256x2048 : Shape := ⟨3, ![1, 256, 2048]⟩
abbrev S2x1x256x64 : Shape := ⟨4, ![2, 1, 256, 64]⟩
abbrev S2048x128 : Shape := ⟨2, ![2048, 128]⟩
abbrev S2048x64 : Shape := ⟨2, ![2048, 64]⟩
abbrev S256x64 : Shape := ⟨2, ![256, 64]⟩
abbrev S256x128 : Shape := ⟨2, ![256, 128]⟩
abbrev S128x2048 : Shape := ⟨2, ![128, 2048]⟩
abbrev S256x2048 : Shape := ⟨2, ![256, 2048]⟩
abbrev S256 : Shape := ⟨1, ![256]⟩
abbrev S256x1 : Shape := ⟨2, ![256, 1]⟩
abbrev S1x1x256x64 : Shape := ⟨4, ![1, 1, 256, 64]⟩
abbrev S2x8x2048x2048 : Shape := ⟨4, ![2, 8, 2048, 2048]⟩
abbrev S2x2x8x2048x64 : Shape := ⟨5, ![2, 2, 8, 2048, 64]⟩

abbrev nBuf : Space → Nat
  | .hbm => 16
  | .vmem => 20
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2x8x2048x64, .f32⟩
  | .hbm, ⟨4, _⟩ => ⟨S2x8x2048x64, .f32⟩
  | .hbm, ⟨5, _⟩ => ⟨S2x8x2048x64, .f32⟩
  | .hbm, ⟨6, _⟩ => ⟨S16x2048x64, .f32⟩
  | .hbm, ⟨7, _⟩ => ⟨S16x2048x64, .f32⟩
  | .hbm, ⟨8, _⟩ => ⟨S16x2048x64, .f32⟩
  | .hbm, ⟨9, _⟩ => ⟨S16x2048x64, .f32⟩
  | .hbm, ⟨10, _⟩ => ⟨S16x2048x64, .f32⟩
  | .hbm, ⟨11, _⟩ => ⟨S16x2048x64, .f32⟩
  | .hbm, ⟨12, _⟩ => ⟨S16x2048x2048, .f32⟩
  | .hbm, ⟨13, _⟩ => ⟨S2x16x2048x64, .f32⟩
  | .hbm, ⟨14, _⟩ => ⟨S2x8x2048x2048, .f32⟩
  | .hbm, ⟨15, _⟩ => ⟨S2x2x8x2048x64, .f32⟩
  | .local _ .vmem, ⟨0, _⟩ => ⟨S1x256x64, .f32⟩
  | .local _ .vmem, ⟨1, _⟩ => ⟨S1x256x64, .f32⟩
  | .local _ .vmem, ⟨2, _⟩ => ⟨S1x256x64, .f32⟩
  | .local _ .vmem, ⟨3, _⟩ => ⟨S1x256x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x64, .f32⟩
  | .local _ .vmem, ⟨7, _⟩ => ⟨S1x2048x64, .f32⟩
  | .local _ .vmem, ⟨8, _⟩ => ⟨S1x2048x64, .f32⟩
  | .local _ .vmem, ⟨9, _⟩ => ⟨S1x2048x64, .f32⟩
  | .local _ .vmem, ⟨10, _⟩ => ⟨S1x2048x64, .f32⟩
  | .local _ .vmem, ⟨11, _⟩ => ⟨S1x2048x64, .f32⟩
  | .local _ .vmem, ⟨12, _⟩ => ⟨S1x256x2048, .f32⟩
  | .local _ .vmem, ⟨13, _⟩ => ⟨S1x256x2048, .f32⟩
  | .local _ .vmem, ⟨14, _⟩ => ⟨S2x1x256x64, .f32⟩
  | .local _ .vmem, ⟨15, _⟩ => ⟨S2x1x256x64, .f32⟩
  | .local _ .vmem, ⟨16, _⟩ => ⟨S2048x128, .bf16⟩
  | .local _ .vmem, ⟨17, _⟩ => ⟨S2048x128, .bf16⟩
  | .local _ .vmem, ⟨18, _⟩ => ⟨S2048x64, .bf16⟩
  | .local _ .vmem, ⟨19, _⟩ => ⟨S2048x64, .bf16⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S2x8x2048x64_S16x2048x64 : S2x8x2048x64.ShapeCasts S16x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  concatenates_S2048x64_S2048x64_S2048x128_d1 : Shape.Concatenates [S2048x64, S2048x64] S2048x128 1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  concatenates_S256x64_S256x64_S256x128_d1 : Shape.Concatenates [S256x64, S256x64] S256x128 1
  transposes_S2048x128_p1_0_S128x2048 : S2048x128.Transposes [1, 0] S128x2048
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S2x1x256x64_S1x1x256x64_0_0_0_0 : ∀ a, (![0, 0, 0, 0] : Fin 4 → Nat) a + S1x1x256x64.size a ≤ S2x1x256x64.size a
  h_S1x1x256x64 : 0 < S1x1x256x64.numel
  shapeCasts_S1x1x256x64_S256x64 : S1x1x256x64.ShapeCasts S256x64
  shapeCasts_S256x64_S1x1x256x64 : S256x64.ShapeCasts S1x1x256x64
  inb_S2x1x256x64_S1x1x256x64_1_0_0_0 : ∀ a, (![1, 0, 0, 0] : Fin 4 → Nat) a + S1x1x256x64.size a ≤ S2x1x256x64.size a
  shapeCasts_S16x2048x2048_S2x8x2048x2048 : S16x2048x2048.ShapeCasts S2x8x2048x2048
  shapeCasts_S2x16x2048x64_S2x2x8x2048x64 : S2x16x2048x64.ShapeCasts S2x2x8x2048x64
  dot_S256x128_S128x2048_S256x2048_1_0_0_1_n_n_wf : DotDims.WF S256x128 S128x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x2048x64.size a
  hwx0_0 : ∀ i : grid0.Coords, EltTy.bits .f32 = 32 ∨ (Rect.block (s := S16x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S16x2048x64.size a
  hwx0_1 : ∀ i : grid0.Coords, EltTy.bits .f32 = 32 ∨ (Rect.block (s := S16x2048x64) S1x256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S16x2048x64.size a
  hwx0_3 : ∀ i : grid0.Coords, EltTy.bits .f32 = 32 ∨ (Rect.block (s := S16x2048x64) S1x2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S16x2048x64.size a
  hwx0_4 : ∀ i : grid0.Coords, EltTy.bits .f32 = 32 ∨ (Rect.block (s := S16x2048x64) S1x2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x64.size a ≤ S16x2048x64.size a
  hwx0_5 : ∀ i : grid0.Coords, EltTy.bits .f32 = 32 ∨ (Rect.block (s := S16x2048x64) S1x2048x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x2048.size a ≤ S16x2048x2048.size a
  hwx0_6 : ∀ i : grid0.Coords, EltTy.bits .f32 = 32 ∨ (Rect.block (s := S16x2048x2048) S1x256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x1x256x64.size a ≤ S2x16x2048x64.size a
  hwx0_7 : ∀ i : grid0.Coords, EltTy.bits .f32 = 32 ∨ (Rect.block (s := S2x16x2048x64) S2x1x256x64.size (cc0_transform_7 i) (hinb0_7 i)).WholeWords (EltTy.packing .f32)

variable [Facts₀]

def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x2048x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1x256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S2x1x256x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x8x2048x64 : Shape := ⟨4, ![2, 8, 2048, 64]⟩
abbrev S_ : Shape := ⟨0, ![]⟩
abbrev S2x8x2048x2048 : Shape := ⟨4, ![2, 8, 2048, 2048]⟩
abbrev S2x8x2048 : Shape := ⟨3, ![2, 8, 2048]⟩
abbrev S2x8x2048x1 : Shape := ⟨4, ![2, 8, 2048, 1]⟩
abbrev S1x2x8x2048x64 : Shape := ⟨5, ![1, 2, 8, 2048, 64]⟩
abbrev S2x2x8x2048x64 : Shape := ⟨5, ![2, 2, 8, 2048, 64]⟩

abbrev nBuf : Space → Nat
  | .hbm => 43
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2x8x2048x64, .f32⟩
  | .hbm, ⟨4, _⟩ => ⟨S2x8x2048x64, .f32⟩
  | .hbm, ⟨5, _⟩ => ⟨S2x8x2048x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x8x2048x2048, .f32⟩
  | .hbm, ⟨11, _⟩ => ⟨S2x8x2048x2048, .f32⟩
  | .hbm, ⟨12, _⟩ => ⟨S2x8x2048x2048, .f32⟩
  | .hbm, ⟨13, _⟩ => ⟨S2x8x2048x2048, .f32⟩
  | .hbm, ⟨14, _⟩ => ⟨S2x8x2048x2048, .f32⟩
  | .hbm, ⟨15, _⟩ => ⟨S2x8x2048x2048, .f32⟩
  | .hbm, ⟨16, _⟩ => ⟨S2x8x2048x2048, .f32⟩
  | .hbm, ⟨17, _⟩ => ⟨S2x8x2048x2048, .f32⟩
  | .hbm, ⟨18, _⟩ => ⟨S2x8x2048x2048, .f32⟩
  | .hbm, ⟨19, _⟩ => ⟨S2x8x2048x2048, .f32⟩
  | .hbm, ⟨20, _⟩ => ⟨S2x8x2048x2048, .f32⟩
  | .hbm, ⟨21, _⟩ => ⟨S2x8x2048x2048, .f32⟩
  | .hbm, ⟨22, _⟩ => ⟨S2x8x2048x2048, .f32⟩
  | .hbm, ⟨23, _⟩ => ⟨S2x8x2048x2048, .f32⟩
  | .hbm, ⟨24, _⟩ => ⟨S_, .f32⟩
  | .hbm, ⟨25, _⟩ => ⟨S2x8x2048, .f32⟩
  | .hbm, ⟨26, _⟩ => ⟨S_, .f32⟩
  | .hbm, ⟨27, _⟩ => ⟨S2x8x2048, .f32⟩
  | .hbm, ⟨28, _⟩ => ⟨S2x8x2048, .f32⟩
  | .hbm, ⟨29, _⟩ => ⟨S2x8x2048x1, .f32⟩
  | .hbm, ⟨30, _⟩ => ⟨S2x8x2048x2048, .f32⟩
  | .hbm, ⟨31, _⟩ => ⟨S2x8x2048x2048, .f32⟩
  | .hbm, ⟨32, _⟩ => ⟨S2x8x2048x2048, .f32⟩
  | .hbm, ⟨33, _⟩ => ⟨S_, .f32⟩
  | .hbm, ⟨34, _⟩ => ⟨S2x8x2048, .f32⟩
  | .hbm, ⟨35, _⟩ => ⟨S2x8x2048x1, .f32⟩
  | .hbm, ⟨36, _⟩ => ⟨S2x8x2048x2048, .f32⟩
  | .hbm, ⟨37, _⟩ => ⟨S2x8x2048x2048, .f32⟩
  | .hbm, ⟨38, _⟩ => ⟨S2x8x2048x64, .f32⟩
  | .hbm, ⟨39, _⟩ => ⟨S2x8x2048x64, .f32⟩
  | .hbm, ⟨40, _⟩ => ⟨S1x2x8x2048x64, .f32⟩
  | .hbm, ⟨41, _⟩ => ⟨S1x2x8x2048x64, .f32⟩
  | .hbm, ⟨42, _⟩ => ⟨S2x2x8x2048x64, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S_S2x8x2048x2048 : S_.BroadcastsInDim S2x8x2048x2048 (![] : Fin 0 → Fin S2x8x2048x2048.rank)
  reducesTo_S2x8x2048x2048_S2x8x2048_d3 : S2x8x2048x2048.ReducesTo [3] S2x8x2048
  h_S_ : 0 < S_.numel
  bcast_S_S2x8x2048 : S_.BroadcastsInDim S2x8x2048 (![] : Fin 0 → Fin S2x8x2048.rank)
  bcast_S2x8x2048_S2x8x2048x1_0_1_2 : S2x8x2048.BroadcastsInDim S2x8x2048x1 (![0, 1, 2] : Fin 3 → Fin S2x8x2048x1.rank)
  bcast_S2x8x2048x1_S2x8x2048x2048_0_1_2_3 : S2x8x2048x1.BroadcastsInDim S2x8x2048x2048 (![0, 1, 2, 3] : Fin 4 → Fin S2x8x2048x2048.rank)
  bcast_S2x8x2048x64_S1x2x8x2048x64_1_2_3_4 : S2x8x2048x64.BroadcastsInDim S1x2x8x2048x64 (![1, 2, 3, 4] : Fin 4 → Fin S1x2x8x2048x64.rank)
  concatenates_S1x2x8x2048x64_S1x2x8x2048x64_S2x2x8x2048x64_d0 : Shape.Concatenates [S1x2x8x2048x64, S1x2x8x2048x64] S2x2x8x2048x64 0
  dot_S2x8x2048x64_S2x8x2048x64_S2x8x2048x2048_3_3_2_2_01_01_wf : DotDims.WF S2x8x2048x64 S2x8x2048x64 S2x8x2048x2048 [3] [3] [2] [2] [0, 1] [0, 1]
  dot_S2x8x2048x2048_S2x8x2048x64_S2x8x2048x64_3_2_2_3_01_01_wf : DotDims.WF S2x8x2048x2048 S2x8x2048x64 S2x8x2048x64 [3] [2] [2] [3] [0, 1] [0, 1]

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf
def dot_S2x8x2048x2048_S2x8x2048x64_S2x8x2048x64_3_2_2_3_01_01 : DotDims S2x8x2048x2048 S2x8x2048x64 S2x8x2048x64 where
  lhsContracting := [3]
  rhsContracting := [2]
  lhsNonContracting := [2]
  rhsNonContracting := [3]
  lhsBatch := [0, 1]
  rhsBatch := [0, 1]
  wf := dot_S2x8x2048x2048_S2x8x2048x64_S2x8x2048x64_3_2_2_3_01_01_wf

class Facts : Prop extends Facts₀ where

variable [Facts]
-- ==== Proof.Spec.lean ====
/-
  Complex scaled dot-product attention, as mathematics on the extended reals.

  One query position has 64 real and 64 imaginary features; a key position likewise. The score of a query against a
  key is the complex inner product q · conj(k), scaled by 1/8 = 1/sqrt(64):
      re = (Σ qr·kr + Σ qi·ki) / 8,     im = (Σ qr·ki − Σ qi·kr) / 8,
  its modulus sqrt(re² + im²) is soft-maxed along the keys, and the resulting weights mix the value rows.

  Two arrangements of the same function are defined here:
  * the "folded" one (`attnK`): the scale is multiplied into every key feature first, the two 64-term sums are one
    128-term contraction of [qr | qi] against [kr/8 | ki/8] (real part) and against [ki/8 | 0 − kr/8] (imaginary
    part), and the soft-max multiplies by the reciprocal of the row sum;
  * the "textbook" one (`attnR`): the sums are scaled afterwards by 1 / sqrt 64, and the soft-max divides by the row sum.
  `attnK_eq_attnR` says they agree when the query and key features are real numbers.
-/
import Idealize.ShloMosaic.PureOps.Ideal
import Idealize.ShloMosaic.PureOps.Ideal.Laws
import Idealize.ShloMosaic.Lib.ValueIdx

noncomputable section

namespace Cert.CAttn

open Idealize.ShloMosaic Idealize.ShloMosaic.ValueIdx

/-- The 64 features of one position. -/
abbrev Row := Fin 64 → EReal
/-- The features of the 2048 key (or value) positions of one head. -/
abbrev Keys := Fin 2048 → Fin 64 → EReal

/-! ## The literal words -/

/-- 0.125 as an f32 word. -/
abbrev wEighth : EReal := Ideal.ofBits .f32 0x3E000000#32
/-- +0.0 as a bf16 word. -/
abbrev wZeroB : EReal := Ideal.ofBits .bf16 0x0000#16
/-- +0.0 as an f32 word. -/
abbrev wZero : EReal := Ideal.ofBits .f32 0x00000000#32
/-- 1.0 as an f32 word. -/
abbrev wOne : EReal := Ideal.ofBits .f32 0x3F800000#32
/-- 64.0 as an f32 word. -/
abbrev wSixtyFour : EReal := Ideal.ofBits .f32 0x42800000#32
/-- −∞ as an f32 word. -/
abbrev wNegInf : EReal := Ideal.ofBits .f32 0xFF800000#32

/-- 0.125 is the real number 1/8. -/
theorem wEighth_eq : wEighth = ((1 / 8 : ℝ) : EReal) := by
  simp [Ideal.ofBits, Ideal.ieee, -EReal.coe_mul]; norm_num
/-- The bf16 zero is 0. -/
theorem wZeroB_eq : wZeroB = 0 := by
  simp [Ideal.ofBits, Ideal.ieee]
/-- The f32 zero is 0. -/
theorem wZero_eq : wZero = 0 := by
  simp [Ideal.ofBits, Ideal.ieee]
/-- 1.0 is 1. -/
theorem wOne_eq : wOne = 1 := by
  simp [Ideal.ofBits, Ideal.ieee, -EReal.coe_mul]; norm_num
/-- 64.0 is the real number 64. -/
theorem wSixtyFour_eq : wSixtyFour = ((64 : ℝ) : EReal) := by
  simp [Ideal.ofBits, Ideal.ieee, -EReal.coe_mul]; norm_num
/-- The −∞ word is the bottom of the extended reals. -/
theorem wNegInf_eq : wNegInf = ⊥ := by
  simp [Ideal.ofBits, Ideal.ieee]

/-! ## The halves of a 128-wide feature axis -/

/-- Position `d` of the first half. -/
def lo (d : Fin 64) : Fin 128 := ⟨d.val, by have := d.isLt; omega⟩
/-- Position `d` of the second half. -/
def hi (d : Fin 64) : Fin 128 := ⟨d.val + 64, by have := d.isLt; omega⟩

/-- A 128-term sum is the sum over its first half plus the sum over its second half. -/
theorem sum_halves (f : Fin 128 → EReal) : ∑ j, f j = ∑ d, f (lo d) + ∑ d, f (hi d) := by
  -- 128 = 64 + 64: the first 64 positions are the `lo d`, the last 64 the `hi d`.
  have h := Fin.sum_univ_add (M := EReal) (a := 64) (b := 64) f
  have hlo : ∀ d : Fin 64, (Fin.castAdd 64 d : Fin 128) = lo d := fun d => Fin.ext rfl
  have hhi : ∀ d : Fin 64, (Fin.natAdd 64 d : Fin 128) = hi d := fun d => Fin.ext (Nat.add_comm _ _)
  simpa only [hlo, hhi] using h

/-! ## Scores -/

/-- [qr | qi] contracted against one 128-wide row. -/
def dotS (qr qi : Row) (sc : Fin 128 → EReal) : EReal := ∑ d, qr d * sc (lo d) + ∑ d, qi d * sc (hi d)

/-- The 128-wide row [kr/8 | ki/8]. -/
def packRe (kr ki : Row) : Fin 128 → EReal :=
  fun j => if h : j.val < 64 then kr ⟨j.val, h⟩ * wEighth else ki ⟨j.val - 64, by have := j.isLt; omega⟩ * wEighth
/-- The 128-wide row [ki/8 | 0 − kr/8]. -/
def packIm (kr ki : Row) : Fin 128 → EReal :=
  fun j => if h : j.val < 64 then ki ⟨j.val, h⟩ * wEighth else wZeroB - kr ⟨j.val - 64, by have := j.isLt; omega⟩ * wEighth

/-- sqrt(re² + im²). -/
def modulus (re im : EReal) : EReal := Ideal.sqrt (re * re + im * im)

/-- The folded arrangement's score modulus of a query against a key. -/
def magK (qr qi kr ki : Row) : EReal := modulus (dotS qr qi (packRe kr ki)) (dotS qr qi (packIm kr ki))

/-- 1 / sqrt 64, as the textbook arrangement computes it. -/
def scaleR : EReal := Ideal.div wOne (Ideal.sqrt wSixtyFour)

/-- The textbook arrangement's score modulus. -/
def magR (qr qi kr ki : Row) : EReal :=
  modulus ((∑ d, qr d * kr d + ∑ d, qi d * ki d) * scaleR) ((∑ d, qr d * ki d - ∑ d, qi d * kr d) * scaleR)

/-! ## Soft-max along a row of 2048 -/

/-- The largest entry of a row, from −∞. -/
def rowMax (x : Fin 2048 → EReal) : EReal := (Finset.univ : Finset (Fin 2048)).fold max wNegInf x

/-- Soft-max, multiplying by the reciprocal of the row sum. -/
def normK (x : Fin 2048 → EReal) (k : Fin 2048) : EReal :=
  Ideal.exp (x k - rowMax x) * Ideal.div wOne (∑ k', Ideal.exp (x k' - rowMax x))

/-- Soft-max, dividing by the row sum (the maximum guarded against −∞, the sum started from zero). -/
def normR (x : Fin 2048 → EReal) (k : Fin 2048) : EReal :=
  Ideal.div (Ideal.exp (x k - max wNegInf (rowMax x))) (wZero + ∑ k', Ideal.exp (x k' - max wNegInf (rowMax x)))

/-- The attention weights of one query over the keys, folded arrangement. -/
def attnK (qr qi : Row) (Kr Ki : Keys) : Fin 2048 → EReal := normK fun k' => magK qr qi (Kr k') (Ki k')
/-- The attention weights of one query over the keys, textbook arrangement. -/
def attnR (qr qi : Row) (Kr Ki : Keys) : Fin 2048 → EReal := normR fun k' => magR qr qi (Kr k') (Ki k')

/-- The weights mix the value rows. -/
def mix (p : Fin 2048 → EReal) (V : Keys) (d : Fin 64) : EReal := ∑ k, p k * V k d

/-! ## The two arrangements agree on real features -/

/-! ### Real features: coercions leave sums and products -/

/-- The coercion of a finite real sum is the sum of the coercions. -/
theorem coe_sum {ι : Type} (s : Finset ι) (g : ι → ℝ) : ((∑ i ∈ s, g i : ℝ) : EReal) = ∑ i ∈ s, (g i : EReal) := by
  classical
  induction s using Finset.induction_on with
  | empty => simp
  | insert i s hi ih => rw [Finset.sum_insert hi, Finset.sum_insert hi, EReal.coe_add, ih]

/-- sqrt 64 = 8. -/
theorem sqrt_sixtyFour : Real.sqrt 64 = 8 := by
  rw [show (64 : ℝ) = 8 ^ 2 by norm_num]; exact Real.sqrt_sq (by norm_num)

/-- The textbook scale 1 / sqrt 64 is the real number 1/8. -/
theorem scaleR_eq : scaleR = ((1 / 8 : ℝ) : EReal) := by
  unfold scaleR
  rw [wOne_eq, wSixtyFour_eq, Ideal.sqrt_coe, if_neg (by norm_num), sqrt_sixtyFour, Ideal.div_coe (by norm_num), one_mul]

/-! ### The packed rows at the two halves -/

theorem packRe_lo (kr ki : Row) (d : Fin 64) : packRe kr ki (lo d) = kr d * wEighth :=
  dif_pos (show (lo d).val < 64 from d.isLt)

theorem packIm_lo (kr ki : Row) (d : Fin 64) : packIm kr ki (lo d) = ki d * wEighth :=
  dif_pos (show (lo d).val < 64 from d.isLt)

/-- Position `d` of the second half, read back: (d + 64) − 64 = d. -/
theorem hi_sub (d : Fin 64) (h : (hi d).val - 64 < 64) : (⟨(hi d).val - 64, h⟩ : Fin 64) = d :=
  Fin.ext (show d.val + 64 - 64 = d.val by omega)

theorem not_hi_lt (d : Fin 64) : ¬ (hi d).val < 64 := Nat.not_lt.mpr (Nat.le_add_left 64 d.val)

theorem packRe_hi (kr ki : Row) (d : Fin 64) : packRe kr ki (hi d) = ki d * wEighth := by
  unfold packRe
  rw [dif_neg (not_hi_lt d), hi_sub]

theorem packIm_hi (kr ki : Row) (d : Fin 64) : packIm kr ki (hi d) = wZeroB - kr d * wEighth := by
  unfold packIm
  rw [dif_neg (not_hi_lt d), hi_sub]

/-! ### One key: the folded and the textbook score agree -/

/-- The folded real part: Σ qr·(kr/8) + Σ qi·(ki/8) = (Σ qr·kr + Σ qi·ki)/8. -/
theorem dotS_packRe_coe (a b c e : Fin 64 → ℝ) :
    dotS (fun d => (a d : EReal)) (fun d => (b d : EReal)) (packRe (fun d => (c d : EReal)) (fun d => (e d : EReal)))
      = (((∑ d, a d * c d + ∑ d, b d * e d) * (1 / 8) : ℝ) : EReal) := by
  unfold dotS
  simp only [packRe_lo, packRe_hi, wEighth_eq, ← EReal.coe_mul, ← coe_sum, ← EReal.coe_add]
  congr 1
  rw [add_mul, Finset.sum_mul, Finset.sum_mul]
  congr 1 <;> exact Finset.sum_congr rfl (fun d _ => by ring)

/-- The folded imaginary part: Σ qr·(ki/8) + Σ qi·(0 − kr/8) = (Σ qr·ki − Σ qi·kr)/8. -/
theorem dotS_packIm_coe (a b c e : Fin 64 → ℝ) :
    dotS (fun d => (a d : EReal)) (fun d => (b d : EReal)) (packIm (fun d => (c d : EReal)) (fun d => (e d : EReal)))
      = (((∑ d, a d * e d - ∑ d, b d * c d) * (1 / 8) : ℝ) : EReal) := by
  unfold dotS
  simp only [packIm_lo, packIm_hi, wEighth_eq, wZeroB_eq, ← EReal.coe_zero, ← EReal.coe_mul, ← EReal.coe_sub,
    ← coe_sum, ← EReal.coe_add]
  congr 1
  rw [sub_mul, Finset.sum_mul, Finset.sum_mul, sub_eq_add_neg, ← Finset.sum_neg_distrib]
  congr 1 <;> exact Finset.sum_congr rfl (fun d _ => by ring)

/-- The modulus of two reals is the real sqrt(r² + s²). -/
theorem modulus_coe (r s : ℝ) : modulus (r : EReal) (s : EReal) = ((Real.sqrt (r * r + s * s) : ℝ) : EReal) := by
  unfold modulus
  rw [← EReal.coe_mul, ← EReal.coe_mul, ← EReal.coe_add, Ideal.sqrt_coe,
    if_neg (not_lt.mpr (add_nonneg (mul_self_nonneg r) (mul_self_nonneg s)))]

/-- On real features both arrangements give one and the same real modulus. -/
theorem mag_coe (a b c e : Fin 64 → ℝ) :
    ∃ r : ℝ, magK (fun d => (a d : EReal)) (fun d => (b d : EReal)) (fun d => (c d : EReal)) (fun d => (e d : EReal)) = (r : EReal)
      ∧ magR (fun d => (a d : EReal)) (fun d => (b d : EReal)) (fun d => (c d : EReal)) (fun d => (e d : EReal)) = (r : EReal) := by
  refine ⟨Real.sqrt (((∑ d, a d * c d + ∑ d, b d * e d) * (1 / 8)) * ((∑ d, a d * c d + ∑ d, b d * e d) * (1 / 8))
    + ((∑ d, a d * e d - ∑ d, b d * c d) * (1 / 8)) * ((∑ d, a d * e d - ∑ d, b d * c d) * (1 / 8))), ?_, ?_⟩
  · unfold magK
    rw [dotS_packRe_coe, dotS_packIm_coe, modulus_coe]
  · unfold magR
    simp only [scaleR_eq, ← EReal.coe_mul, ← coe_sum, ← EReal.coe_add, ← EReal.coe_sub]
    rw [modulus_coe]

/-! ### The soft-max of a real row -/

/-- The maximum of a row of 2048 reals is a real. -/
theorem rowMax_coe (y : Fin 2048 → ℝ) : ∃ m : ℝ, rowMax (fun k => (y k : EReal)) = (m : EReal) := by
  have hlt : rowMax (fun k => (y k : EReal)) < ⊤ := by
    unfold rowMax
    rw [wNegInf_eq, Finset.fold_max_lt]
    exact ⟨bot_lt_top, fun k _ => EReal.coe_lt_top _⟩
  have hgt : ⊥ < rowMax (fun k => (y k : EReal)) := by
    unfold rowMax
    rw [wNegInf_eq, Finset.lt_fold_max]
    exact Or.inr ⟨0, Finset.mem_univ _, EReal.bot_lt_coe _⟩
  exact ⟨_, (EReal.coe_toReal hlt.ne hgt.ne').symm⟩

/-- For a real row the exponentials are positive reals, so is their sum L, and multiplying by 1/L is
    dividing by 0 + L. -/
theorem normK_eq_normR_coe (y : Fin 2048 → ℝ) (k : Fin 2048) :
    normK (fun k' => (y k' : EReal)) k = normR (fun k' => (y k' : EReal)) k := by
  obtain ⟨m, hm⟩ := rowMax_coe y
  have hpos : (0 : ℝ) < ∑ k', Real.exp (y k' - m) :=
    Finset.sum_pos (fun i _ => Real.exp_pos _) Finset.univ_nonempty
  unfold normK normR
  rw [wNegInf_eq, wZero_eq, wOne_eq, max_bot_left, zero_add, hm]
  simp only [← EReal.coe_sub, Ideal.exp_coe, ← coe_sum]
  rw [Ideal.div_coe hpos.ne', Ideal.div_coe hpos.ne', one_mul]

theorem attnK_eq_attnR (qr qi : Row) (Kr Ki : Keys)
    (hqr : ∀ d, ∃ r : ℝ, qr d = (r : EReal)) (hqi : ∀ d, ∃ r : ℝ, qi d = (r : EReal))
    (hKr : ∀ k d, ∃ r : ℝ, Kr k d = (r : EReal)) (hKi : ∀ k d, ∃ r : ℝ, Ki k d = (r : EReal)) :
    attnK qr qi Kr Ki = attnR qr qi Kr Ki := by
  -- real witnesses of every feature
  choose a ha using hqr
  choose b hb using hqi
  choose C hC using hKr
  choose E hE using hKi
  -- per key, both arrangements give the same real modulus
  have key : ∀ k', ∃ r : ℝ, magK qr qi (Kr k') (Ki k') = (r : EReal) ∧ magR qr qi (Kr k') (Ki k') = (r : EReal) := by
    intro k'
    rw [show qr = fun d => (a d : EReal) from funext ha, show qi = fun d => (b d : EReal) from funext hb,
      show Kr k' = fun d => (C k' d : EReal) from funext (hC k'),
      show Ki k' = fun d => (E k' d : EReal) from funext (hE k')]
    exact mag_coe a b (C k') (E k')
  choose R hRK hRR using key
  funext k
  show normK (fun k' => magK qr qi (Kr k') (Ki k')) k = normR (fun k' => magR qr qi (Kr k') (Ki k')) k
  rw [show (fun k' => magK qr qi (Kr k') (Ki k')) = fun k' => (R k' : EReal) from funext hRK,
    show (fun k' => magR qr qi (Kr k') (Ki k')) = fun k' => (R k' : EReal) from funext hRR]
  exact normK_eq_normR_coe R k

/-! ## Whole arrays: [batch 2, head 8, position 2048, feature 64] -/

abbrev S4 : Shape := ⟨4, ![2, 8, 2048, 64]⟩
abbrev SP : Shape := ⟨4, ![2, 8, 2048, 2048]⟩
abbrev SO : Shape := ⟨5, ![2, 2, 8, 2048, 64]⟩

/-- The features of position `q` of head `(b, h)`. -/
def rowOf (X : S4.Idx → EReal) (b : Fin 2) (h : Fin 8) (q : Fin 2048) : Row := fun d => X (ix4 b h q d)
/-- All positions of head `(b, h)`. -/
def keysOf (X : S4.Idx → EReal) (b : Fin 2) (h : Fin 8) : Keys := fun k d => X (ix4 b h k d)

/-- The attention weights, every head and query. -/
def probs (attn : Row → Row → Keys → Keys → Fin 2048 → EReal) (Qr Qi Kr Ki : S4.Idx → EReal) : SP.Idx → EReal :=
  fun i => attn (rowOf Qr (i 0) (i 1) (i 2)) (rowOf Qi (i 0) (i 1) (i 2)) (keysOf Kr (i 0) (i 1)) (keysOf Ki (i 0) (i 1)) (i 3)

/-- The mixed values: plane 0 mixes the real value features, plane 1 the imaginary ones. -/
def outs (attn : Row → Row → Keys → Keys → Fin 2048 → EReal) (Qr Qi Kr Ki Vr Vi : S4.Idx → EReal) : SO.Idx → EReal :=
  fun i => mix (attn (rowOf Qr (i 1) (i 2) (i 3)) (rowOf Qi (i 1) (i 2) (i 3)) (keysOf Kr (i 1) (i 2)) (keysOf Ki (i 1) (i 2)))
    (keysOf (if (i 0).val = 0 then Vr else Vi) (i 1) (i 2)) (i 4)

end Cert.CAttn

end
-- ==== Proof.Finite.lean ====
/-
  The precondition, read: six arrays pass the test "every |entry| < +∞" exactly when every entry is a real number
  (an extended real below +∞ in absolute value is neither +∞ nor −∞). Only the four query and key arrays are needed
  downstream: the value arrays enter both programs through the same weighted sum.
-/
import proofs.«411658_j88433376624754_3_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.CAttn.Finite

open Idealize.ShloMosaic Idealize.ShloMosaic.ValueIdx

/-- The pattern with all exponent bits set, a clear sign and a zero significand denotes +∞. -/
theorem top_word : Ideal.ofBits .f32 0x7F800000#32 = (⊤ : EReal) := by
  simp [Ideal.ofBits, Ideal.ieee]

/-- An extended real whose absolute value max x (−x) lies strictly below +∞ is a real number:
    at +∞ the maximum is +∞ itself, and at −∞ it is −(−∞) = +∞. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The element test: the comparison "|x| < +∞" answering 1 says x is a real number. -/
theorem real_of_test (x : Ideal .f32)
    (h : FloatOps.cmpf .olt (FloatOps.hostAbsf x) (FloatOps.ofBits (F := Ideal) .f32 0x7F800000#32) = 1#1) :
    ∃ r : ℝ, x = (r : EReal) := by
  refine real_of_abs_lt_top x ?_
  rw [Ideal.hostAbsf_def, Ideal.cmpf_def, Ideal.absf_def, Ideal.ofBits_def, top_word] at h
  by_contra hn
  simp [Ideal.cmp, hn] at h

/-- The result of a reduction over all four axes has a single index. -/
instance : Subsingleton Cert.Pre_finite_inputs.S_.Idx := ⟨fun a b => funext fun d => d.elim0⟩

/-- The array test: if the and-reduction over all axes of "|a| < +∞" answers 1, every entry of a is real. -/
theorem real_of_all [Cert.Pre_finite_inputs.Facts]
    (a : FVec Ideal Cert.Pre_finite_inputs.S2x8x2048x64 .f32) (init : IVec Cert.Pre_finite_inputs.S_ 1)
    (j : Cert.Pre_finite_inputs.S_.Idx)
    (e : Host.reduce IntOp.andi
        (cmpf .olt (Host.absf a)
          (broadcastInDim Cert.Pre_finite_inputs.S2x8x2048x64 ![]
            Cert.Pre_finite_inputs.Facts.bcast_S_S2x8x2048x64
            (constant (F := Ideal) Cert.Pre_finite_inputs.S_ .f32 0x7F800000#32)))
        init Cert.Pre_finite_inputs.Facts.reducesTo_S2x8x2048x64_S_d0_1_2_3
        Cert.Pre_finite_inputs.Facts.h_S_ j = 1#1) :
    ∀ i, ∃ r : ℝ, a i = (r : EReal) := fun i =>
  real_of_test (a i) (Host.reduce_andi_all _ init _ _ j e i)

/-- If the finiteness test answers "all ones" on six arrays, the entries of the first four are real numbers. -/
theorem real_of_fn [Cert.Pre_finite_inputs.Facts]
    (a0 a1 a2 a3 a4 a5 : FVec Ideal Cert.Pre_finite_inputs.S2x8x2048x64 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  -- The test is one word; read the hypothesis at its single index and open the printed chain of lets.
  have h0 := congrFun h ValueIdx.ix0
  dsimp only [Cert.Pre_finite_inputs.fn, Cert.Pre_finite_inputs.fn_part1] at h0
  -- The word is ((((t0 ∧ t1) ∧ t2) ∧ t3) ∧ t4) ∧ t5: peel the conjunction from the outside.
  obtain ⟨h01234, _⟩ := IntOp.andi_eq_one.1 h0
  obtain ⟨h0123, _⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨real_of_all a0 _ _ e0, real_of_all a1 _ _ e1, real_of_all a2 _ _ e2, real_of_all a3 _ _ e3⟩

end Cert.CAttn.Finite

end
-- ==== Proof.KernelPieces.lean ====
/-
  What one run of the kernel body leaves behind, as values.

  At the first query tile of a head the body fills four tables from the key and value blocks — the two packed key
  tables and the two value tables — and every tile then computes its attention weights from the query tile and the
  packed key tables, and its two mixed-value planes from those weights and the value tables. The generated frame
  records each of these as "the stores' pieces read back"; here each is identified with the body's arithmetic
  (the payload functions) of the blocks and tables it read.
-/
import proofs.«411658_j88433376624754_3_alg».proof.Proof.Gen.KernelIdeal.Frame
import Idealize.ShloMosaic.Lib.Pipeline.Value
import Idealize.ShloMosaic.Lib.ValueIdx
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first tile of a head: the four tables -/

/-- The first packed key table is the body's packing of the two key blocks. -/
theorem table0_first (c : Dev nD) (i : grid0.Coords) (arg2 : Memref sig .tc .vmem S1x256x64 .f32) (harg2 : arg2.IsWhole) (arg3 : Memref sig .tc .vmem S1x256x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x2048x64 .f32) (harg7 : arg7.IsWhole) (arg8 : Memref sig .tc .vmem S1x256x2048 .f32) (harg8 : arg8.IsWhole) (arg9 : Memref sig .tc .vmem S2x1x256x64 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x64 .bf16) (harg12 : arg12.IsWhole) (arg13 : Memref sig .tc .vmem S2048x64 .bf16) (harg13 : arg13.IsWhole) (hc0 : cond0_0 i) (x0 : Vec F S1x256x64 .f32) (x1 : Vec F S1x256x64 .f32) (x2 : Vec F S1x2048x64 .f32) (x3 : Vec F S1x2048x64 .f32) (x4 : Vec F S1x2048x64 .f32) (x5 : Vec F S1x2048x64 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 = k0_pay5 x2 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg10.read_unread, harg11.read_unread, harg12.read_unread, harg13.read_unread, View.ld_unit_zero (S := S1x256x64) hz3, View.ld_unit_zero (S := S1x2048x64) hz3, View.ld_unit_zero (S := S2048x128) hz2, View.ld_unit_zero (S := S2048x64) hz2, View.readCov_unit_zero (S := S2048x128) _ hz2, View.readCov_unit_zero (S := S2048x64) _ hz2]

/-- The second packed key table. -/
theorem table1_first (c : Dev nD) (i : grid0.Coords) (arg2 : Memref sig .tc .vmem S1x256x64 .f32) (harg2 : arg2.IsWhole) (arg3 : Memref sig .tc .vmem S1x256x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x2048x64 .f32) (harg7 : arg7.IsWhole) (arg8 : Memref sig .tc .vmem S1x256x2048 .f32) (harg8 : arg8.IsWhole) (arg9 : Memref sig .tc .vmem S2x1x256x64 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x64 .bf16) (harg12 : arg12.IsWhole) (arg13 : Memref sig .tc .vmem S2048x64 .bf16) (harg13 : arg13.IsWhole) (hc0 : cond0_0 i) (x0 : Vec F S1x256x64 .f32) (x1 : Vec F S1x256x64 .f32) (x2 : Vec F S1x2048x64 .f32) (x3 : Vec F S1x2048x64 .f32) (x4 : Vec F S1x2048x64 .f32) (x5 : Vec F S1x2048x64 .f32) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 = k0_pay6 x2 x3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg10.read_unread, harg11.read_unread, harg12.read_unread, harg13.read_unread, View.ld_unit_zero (S := S1x256x64) hz3, View.ld_unit_zero (S := S1x2048x64) hz3, View.ld_unit_zero (S := S2048x128) hz2, View.ld_unit_zero (S := S2048x64) hz2, View.readCov_unit_zero (S := S2048x128) _ hz2, View.readCov_unit_zero (S := S2048x64) _ hz2]

/-- The real value table. -/
theorem table2_first (c : Dev nD) (i : grid0.Coords) (arg2 : Memref sig .tc .vmem S1x256x64 .f32) (harg2 : arg2.IsWhole) (arg3 : Memref sig .tc .vmem S1x256x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x2048x64 .f32) (harg7 : arg7.IsWhole) (arg8 : Memref sig .tc .vmem S1x256x2048 .f32) (harg8 : arg8.IsWhole) (arg9 : Memref sig .tc .vmem S2x1x256x64 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x64 .bf16) (harg12 : arg12.IsWhole) (arg13 : Memref sig .tc .vmem S2048x64 .bf16) (harg13 : arg13.IsWhole) (hc0 : cond0_0 i) (x0 : Vec F S1x256x64 .f32) (x1 : Vec F S1x256x64 .f32) (x2 : Vec F S1x2048x64 .f32) (x3 : Vec F S1x2048x64 .f32) (x4 : Vec F S1x2048x64 .f32) (x5 : Vec F S1x2048x64 .f32) :
    sout0_A_2 c i arg2 harg2 arg3 harg3 arg4 harg4 arg5 harg5 arg6 harg6 arg7 harg7 arg8 harg8 arg9 harg9 arg10 harg10 arg11 harg11 arg12 harg12 arg13 harg13 hc0 x0 x1 x2 x3 x4 x5 = k0_pay7 x4 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg10.read_unread, harg11.read_unread, harg12.read_unread, harg13.read_unread, View.ld_unit_zero (S := S1x256x64) hz3, View.ld_unit_zero (S := S1x2048x64) hz3, View.ld_unit_zero (S := S2048x128) hz2, View.ld_unit_zero (S := S2048x64) hz2, View.readCov_unit_zero (S := S2048x128) _ hz2, View.readCov_unit_zero (S := S2048x64) _ hz2]

/-- The imaginary value table. -/
theorem table3_first (c : Dev nD) (i : grid0.Coords) (arg2 : Memref sig .tc .vmem S1x256x64 .f32) (harg2 : arg2.IsWhole) (arg3 : Memref sig .tc .vmem S1x256x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x2048x64 .f32) (harg7 : arg7.IsWhole) (arg8 : Memref sig .tc .vmem S1x256x2048 .f32) (harg8 : arg8.IsWhole) (arg9 : Memref sig .tc .vmem S2x1x256x64 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x64 .bf16) (harg12 : arg12.IsWhole) (arg13 : Memref sig .tc .vmem S2048x64 .bf16) (harg13 : arg13.IsWhole) (hc0 : cond0_0 i) (x0 : Vec F S1x256x64 .f32) (x1 : Vec F S1x256x64 .f32) (x2 : Vec F S1x2048x64 .f32) (x3 : Vec F S1x2048x64 .f32) (x4 : Vec F S1x2048x64 .f32) (x5 : Vec F S1x2048x64 .f32) :
    sout0_A_3 c i arg2 harg2 arg3 harg3 arg4 harg4 arg5 harg5 arg6 harg6 arg7 harg7 arg8 harg8 arg9 harg9 arg10 harg10 arg11 harg11 arg12 harg12 arg13 harg13 hc0 x0 x1 x2 x3 x4 x5 = k0_pay8 x5 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg10.read_unread, harg11.read_unread, harg12.read_unread, harg13.read_unread, View.ld_unit_zero (S := S1x256x64) hz3, View.ld_unit_zero (S := S1x2048x64) hz3, View.ld_unit_zero (S := S2048x128) hz2, View.ld_unit_zero (S := S2048x64) hz2, View.readCov_unit_zero (S := S2048x128) _ hz2, View.readCov_unit_zero (S := S2048x64) _ hz2]

/-! ## The attention weights of a tile -/

/-- At the first tile of a head the weights are computed from the freshly packed key tables. -/
theorem weights_first (c : Dev nD) (i : grid0.Coords) (arg2 : Memref sig .tc .vmem S1x256x64 .f32) (harg2 : arg2.IsWhole) (arg3 : Memref sig .tc .vmem S1x256x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x2048x64 .f32) (harg7 : arg7.IsWhole) (arg8 : Memref sig .tc .vmem S1x256x2048 .f32) (harg8 : arg8.IsWhole) (arg9 : Memref sig .tc .vmem S2x1x256x64 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x64 .bf16) (harg12 : arg12.IsWhole) (arg13 : Memref sig .tc .vmem S2048x64 .bf16) (harg13 : arg13.IsWhole) (hc0 : cond0_0 i) (x0 : Vec F S1x256x64 .f32) (x1 : Vec F S1x256x64 .f32) (x2 : Vec F S1x2048x64 .f32) (x3 : Vec F S1x2048x64 .f32) (x4 : Vec F S1x2048x64 .f32) (x5 : Vec F S1x2048x64 .f32) :
    out0_A_6 c i arg2 harg2 arg3 harg3 arg4 harg4 arg5 harg5 arg6 harg6 arg7 harg7 arg8 harg8 arg9 harg9 arg10 harg10 arg11 harg11 arg12 harg12 arg13 harg13 hc0 x0 x1 x2 x3 x4 x5 = k0_pay10 x0 x1 (k0_pay5 x2 x3) (k0_pay6 x2 x3) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg10.read_unread, harg11.read_unread, harg12.read_unread, harg13.read_unread, View.ld_unit_zero (S := S1x256x64) hz3, View.ld_unit_zero (S := S1x2048x64) hz3, View.ld_unit_zero (S := S2048x128) hz2, View.ld_unit_zero (S := S2048x64) hz2, View.readCov_unit_zero (S := S2048x128) _ hz2, View.readCov_unit_zero (S := S2048x64) _ hz2]

/-- At a later tile they are computed from the tables the tile before left. -/
theorem weights_later (c : Dev nD) (i : grid0.Coords) (arg2 : Memref sig .tc .vmem S1x256x64 .f32) (harg2 : arg2.IsWhole) (arg3 : Memref sig .tc .vmem S1x256x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x2048x64 .f32) (harg7 : arg7.IsWhole) (arg8 : Memref sig .tc .vmem S1x256x2048 .f32) (harg8 : arg8.IsWhole) (arg9 : Memref sig .tc .vmem S2x1x256x64 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x64 .bf16) (harg12 : arg12.IsWhole) (arg13 : Memref sig .tc .vmem S2048x64 .bf16) (harg13 : arg13.IsWhole) (hc0 : ¬cond0_0 i) (x0 : Vec F S1x256x64 .f32) (x1 : Vec F S1x256x64 .f32) (x2 : Vec F S1x2048x64 .f32) (x3 : Vec F S1x2048x64 .f32) (x4 : Vec F S1x2048x64 .f32) (x5 : Vec F S1x2048x64 .f32) (xs0 : Vec F S2048x128 .bf16) (xs1 : Vec F S2048x128 .bf16) (xs2 : Vec F S2048x64 .bf16) (xs3 : Vec F S2048x64 .bf16) :
    out0_B_6 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3 = k0_pay10 x0 x1 xs0 xs1 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg10.read_unread, harg11.read_unread, harg12.read_unread, harg13.read_unread, View.ld_unit_zero (S := S1x256x64) hz3, View.ld_unit_zero (S := S1x2048x64) hz3, View.ld_unit_zero (S := S2048x128) hz2, View.ld_unit_zero (S := S2048x64) hz2, View.readCov_unit_zero (S := S2048x128) _ hz2, View.readCov_unit_zero (S := S2048x64) _ hz2]

/-! ## The two mixed-value planes of a tile

The body stores the real plane and the imaginary plane by two separate stores into the two halves (along the leading
axis) of one [2, 1, 256, 64] buffer: read back, leading coordinate 0 holds the first store's values and leading
coordinate 1 the second's. -/

/-- The half of the buffer with leading coordinate 0. -/
abbrev half0 : Rect S2x1x256x64 := Rect.unit (s := S2x1x256x64) ![0, 0, 0, 0] ![1, 1, 256, 64] inb_S2x1x256x64_S1x1x256x64_0_0_0_0
/-- The half of the buffer with leading coordinate 1. -/
abbrev half1 : Rect S2x1x256x64 := Rect.unit (s := S2x1x256x64) ![1, 0, 0, 0] ![1, 1, 256, 64] inb_S2x1x256x64_S1x1x256x64_1_0_0_0

theorem half0_emb (r : Fin 256) (d : Fin 64) : half0.emb (ix4 (0 : Fin 1) (0 : Fin 1) r d) = ix4 (0 : Fin 2) (0 : Fin 1) r d := by
  funext a
  apply Fin.ext
  rw [Rect.emb_apply]
  match a with
  | ⟨0, _⟩ => rfl
  | ⟨1, _⟩ => rfl
  | ⟨2, _⟩ => show 0 + 1 * r.val = r.val; omega
  | ⟨3, _⟩ => show 0 + 1 * d.val = d.val; omega

theorem half1_emb (r : Fin 256) (d : Fin 64) : half1.emb (ix4 (0 : Fin 1) (0 : Fin 1) r d) = ix4 (1 : Fin 2) (0 : Fin 1) r d := by
  funext a
  apply Fin.ext
  rw [Rect.emb_apply]
  match a with
  | ⟨0, _⟩ => rfl
  | ⟨1, _⟩ => rfl
  | ⟨2, _⟩ => show 0 + 1 * r.val = r.val; omega
  | ⟨3, _⟩ => show 0 + 1 * d.val = d.val; omega

/-- Leading coordinate 1 reads the later store. -/
theorem planes_at1 (w1 w2 : S1x1x256x64.Idx → Elt F .f32) (r : Fin 256) (d : Fin 64) :
    View.canon [(⟨half1, w2⟩ : View.Piece (Elt F) S2x1x256x64 .f32), ⟨half0, w1⟩] (ix4 (1 : Fin 2) (0 : Fin 1) r d)
      = w2 (ix4 (0 : Fin 1) (0 : Fin 1) r d) := by
  rw [← half1_emb]
  exact View.canon_cons_emb half1 w2 _ _

/-- Leading coordinate 0 lies outside the later store's half and reads the earlier store. -/
theorem planes_at0 (w1 w2 : S1x1x256x64.Idx → Elt F .f32) (r : Fin 256) (d : Fin 64) :
    View.canon [(⟨half1, w2⟩ : View.Piece (Elt F) S2x1x256x64 .f32), ⟨half0, w1⟩] (ix4 (0 : Fin 2) (0 : Fin 1) r d)
      = w1 (ix4 (0 : Fin 1) (0 : Fin 1) r d) := by
  rw [View.canon_cons_of_not_mem]
  · rw [← half0_emb]
    exact View.canon_cons_emb half0 w1 _ _
  · intro h
    have := (Rect.mem_set_unit (inb := inb_S2x1x256x64_S1x1x256x64_1_0_0_0) (i := ix4 (0 : Fin 2) (0 : Fin 1) r d)).mp h (0 : Fin 4)
    exact absurd (show (1 : Nat) ≤ 0 from this.1) (by omega)

/-- First tile of a head, real plane: the weights (in the value tables' format) times the real value table. -/
theorem mixed_first_at0 (c : Dev nD) (i : grid0.Coords) (arg2 : Memref sig .tc .vmem S1x256x64 .f32) (harg2 : arg2.IsWhole) (arg3 : Memref sig .tc .vmem S1x256x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x2048x64 .f32) (harg7 : arg7.IsWhole) (arg8 : Memref sig .tc .vmem S1x256x2048 .f32) (harg8 : arg8.IsWhole) (arg9 : Memref sig .tc .vmem S2x1x256x64 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x64 .bf16) (harg12 : arg12.IsWhole) (arg13 : Memref sig .tc .vmem S2048x64 .bf16) (harg13 : arg13.IsWhole) (hc0 : cond0_0 i) (x0 : Vec F S1x256x64 .f32) (x1 : Vec F S1x256x64 .f32) (x2 : Vec F S1x2048x64 .f32) (x3 : Vec F S1x2048x64 .f32) (x4 : Vec F S1x2048x64 .f32) (x5 : Vec F S1x2048x64 .f32) (r : Fin 256) (d : Fin 64) :
    out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 (ix4 (0 : Fin 2) (0 : Fin 1) r d)
      = k0_pay1 (k0_pay11 x0 x1 (k0_pay5 x2 x3) (k0_pay6 x2 x3)) (k0_pay7 x4) (ix4 (0 : Fin 1) (0 : Fin 1) r d) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  refine (planes_at0 _ _ r d).trans ?_
  simp only [View.readAt_eq_ld, harg2.read_unread, harg3.read_unread, harg4.read_unread, harg5.read_unread, harg6.read_unread, harg7.read_unread, harg10.read_unread, harg11.read_unread, harg12.read_unread, harg13.read_unread, View.ld_unit_zero (S := S1x256x64) hz3, View.ld_unit_zero (S := S1x2048x64) hz3, View.ld_unit_zero (S := S2048x128) hz2, View.ld_unit_zero (S := S2048x64) hz2, View.readCov_unit_zero (S := S2048x128) _ hz2, View.readCov_unit_zero (S := S2048x64) _ hz2]

/-- First tile of a head, imaginary plane. -/
theorem mixed_first_at1 (c : Dev nD) (i : grid0.Coords) (arg2 : Memref sig .tc .vmem S1x256x64 .f32) (harg2 : arg2.IsWhole) (arg3 : Memref sig .tc .vmem S1x256x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x2048x64 .f32) (harg7 : arg7.IsWhole) (arg8 : Memref sig .tc .vmem S1x256x2048 .f32) (harg8 : arg8.IsWhole) (arg9 : Memref sig .tc .vmem S2x1x256x64 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x64 .bf16) (harg12 : arg12.IsWhole) (arg13 : Memref sig .tc .vmem S2048x64 .bf16) (harg13 : arg13.IsWhole) (hc0 : cond0_0 i) (x0 : Vec F S1x256x64 .f32) (x1 : Vec F S1x256x64 .f32) (x2 : Vec F S1x2048x64 .f32) (x3 : Vec F S1x2048x64 .f32) (x4 : Vec F S1x2048x64 .f32) (x5 : Vec F S1x2048x64 .f32) (r : Fin 256) (d : Fin 64) :
    out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 (ix4 (1 : Fin 2) (0 : Fin 1) r d)
      = k0_pay2 (k0_pay11 x0 x1 (k0_pay5 x2 x3) (k0_pay6 x2 x3)) (k0_pay8 x5) (ix4 (0 : Fin 1) (0 : Fin 1) r d) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5)]
  unfold kernelRun0_A
  dsimp only
  sl_unfold_words
  refine (planes_at1 _ _ r d).trans ?_
  simp only [View.readAt_eq_ld, harg2.read_unread, harg3.read_unread, harg4.read_unread, harg5.read_unread, harg6.read_unread, harg7.read_unread, harg10.read_unread, harg11.read_unread, harg12.read_unread, harg13.read_unread, View.ld_unit_zero (S := S1x256x64) hz3, View.ld_unit_zero (S := S1x2048x64) hz3, View.ld_unit_zero (S := S2048x128) hz2, View.ld_unit_zero (S := S2048x64) hz2, View.readCov_unit_zero (S := S2048x128) _ hz2, View.readCov_unit_zero (S := S2048x64) _ hz2]

/-- A later tile, real plane: from the tables the tile before left. -/
theorem mixed_later_at0 (c : Dev nD) (i : grid0.Coords) (arg2 : Memref sig .tc .vmem S1x256x64 .f32) (harg2 : arg2.IsWhole) (arg3 : Memref sig .tc .vmem S1x256x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x2048x64 .f32) (harg7 : arg7.IsWhole) (arg8 : Memref sig .tc .vmem S1x256x2048 .f32) (harg8 : arg8.IsWhole) (arg9 : Memref sig .tc .vmem S2x1x256x64 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x64 .bf16) (harg12 : arg12.IsWhole) (arg13 : Memref sig .tc .vmem S2048x64 .bf16) (harg13 : arg13.IsWhole) (hc0 : ¬cond0_0 i) (x0 : Vec F S1x256x64 .f32) (x1 : Vec F S1x256x64 .f32) (x2 : Vec F S1x2048x64 .f32) (x3 : Vec F S1x2048x64 .f32) (x4 : Vec F S1x2048x64 .f32) (x5 : Vec F S1x2048x64 .f32) (xs0 : Vec F S2048x128 .bf16) (xs1 : Vec F S2048x128 .bf16) (xs2 : Vec F S2048x64 .bf16) (xs3 : Vec F S2048x64 .bf16) (r : Fin 256) (d : Fin 64) :
    out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3 (ix4 (0 : Fin 2) (0 : Fin 1) r d)
      = k0_pay1 (k0_pay11 x0 x1 xs0 xs1) xs2 (ix4 (0 : Fin 1) (0 : Fin 1) r d) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3)]
  unfold kernelRun0_B
  dsimp only
  sl_unfold_words
  refine (planes_at0 _ _ r d).trans ?_
  simp only [View.readAt_eq_ld, harg2.read_unread, harg3.read_unread, harg4.read_unread, harg5.read_unread, harg6.read_unread, harg7.read_unread, harg10.read_unread, harg11.read_unread, harg12.read_unread, harg13.read_unread, View.ld_unit_zero (S := S1x256x64) hz3, View.ld_unit_zero (S := S1x2048x64) hz3, View.ld_unit_zero (S := S2048x128) hz2, View.ld_unit_zero (S := S2048x64) hz2, View.readCov_unit_zero (S := S2048x128) _ hz2, View.readCov_unit_zero (S := S2048x64) _ hz2]

/-- A later tile, imaginary plane. -/
theorem mixed_later_at1 (c : Dev nD) (i : grid0.Coords) (arg2 : Memref sig .tc .vmem S1x256x64 .f32) (harg2 : arg2.IsWhole) (arg3 : Memref sig .tc .vmem S1x256x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x64 .f32) (harg6 : arg6.IsWhole) (arg7 : Memref sig .tc .vmem S1x2048x64 .f32) (harg7 : arg7.IsWhole) (arg8 : Memref sig .tc .vmem S1x256x2048 .f32) (harg8 : arg8.IsWhole) (arg9 : Memref sig .tc .vmem S2x1x256x64 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x64 .bf16) (harg12 : arg12.IsWhole) (arg13 : Memref sig .tc .vmem S2048x64 .bf16) (harg13 : arg13.IsWhole) (hc0 : ¬cond0_0 i) (x0 : Vec F S1x256x64 .f32) (x1 : Vec F S1x256x64 .f32) (x2 : Vec F S1x2048x64 .f32) (x3 : Vec F S1x2048x64 .f32) (x4 : Vec F S1x2048x64 .f32) (x5 : Vec F S1x2048x64 .f32) (xs0 : Vec F S2048x128 .bf16) (xs1 : Vec F S2048x128 .bf16) (xs2 : Vec F S2048x64 .bf16) (xs3 : Vec F S2048x64 .bf16) (r : Fin 256) (d : Fin 64) :
    out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3 (ix4 (1 : Fin 2) (0 : Fin 1) r d)
      = k0_pay2 (k0_pay11 x0 x1 xs0 xs1) xs3 (ix4 (0 : Fin 1) (0 : Fin 1) r d) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 xs0 xs1 xs2 xs3)]
  unfold kernelRun0_B
  dsimp only
  sl_unfold_words
  refine (planes_at1 _ _ r d).trans ?_
  simp only [View.readAt_eq_ld, harg2.read_unread, harg3.read_unread, harg4.read_unread, harg5.read_unread, harg6.read_unread, harg7.read_unread, harg10.read_unread, harg11.read_unread, harg12.read_unread, harg13.read_unread, View.ld_unit_zero (S := S1x256x64) hz3, View.ld_unit_zero (S := S1x2048x64) hz3, View.ld_unit_zero (S := S2048x128) hz2, View.ld_unit_zero (S := S2048x64) hz2, View.readCov_unit_zero (S := S2048x128) _ hz2, View.readCov_unit_zero (S := S2048x64) _ hz2]

end Cert.KernelIdeal.Pieces

end
-- ==== Proof.KernelPoints.lean ====
/-
  The kernel's run, read as values (part 1: what every grid point leaves).

  The grid has 16 heads × 8 query tiles; point n works on head n / 8 and tile n % 8. The four tables the body keeps
  between points are refilled at the first tile of each head and left alone at the other seven, so after EVERY point n
  they hold the packing of head n / 8's key and value rows; and the two results a point writes back are therefore the
  body's arithmetic of its query tile and of head n / 8's tables, whichever kind of point it is.
-/
import proofs.«411658_j88433376624754_3_alg».proof.Proof.KernelPieces
import Idealize.ShloMosaic.Lib.Pipeline.Value
import Idealize.ShloMosaic.Lib.ValueIdx
import Idealize.ShloMosaic.Lib.Tactic

noncomputable section

namespace Cert.KernelIdeal.Attn

open Cert.KernelIdeal Cert.KernelIdeal.Gen Cert.KernelIdeal.Pieces
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- Where each window's block sits at point t: head t / 8, query tile t % 8. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = 0 ∧ win0_3.index t (2 : Fin 3) = 0)
    ∧ (win0_4.index t (0 : Fin 3) = t.val / 8 ∧ win0_4.index t (1 : Fin 3) = 0 ∧ win0_4.index t (2 : Fin 3) = 0)
    ∧ (win0_5.index t (0 : Fin 3) = t.val / 8 ∧ win0_5.index t (1 : Fin 3) = 0 ∧ win0_5.index t (2 : Fin 3) = 0)
    ∧ (win0_6.index t (0 : Fin 3) = t.val / 8 ∧ win0_6.index t (1 : Fin 3) = t.val % 8 ∧ win0_6.index t (2 : Fin 3) = 0)
    ∧ (win0_7.index t (0 : Fin 4) = 0 ∧ win0_7.index t (1 : Fin 4) = t.val / 8 ∧ win0_7.index t (2 : Fin 4) = t.val % 8 ∧ win0_7.index t (3 : Fin 4) = 0) :=
  (by decide +kernel : ∀ t : Fin grid0.N, _)

/-- The 2048 rows of head b of a [16, 2048, 64] array, as one [1, 2048, 64] block. -/
def headBlk (X : S16x2048x64.Idx → Elt F .f32) (b : Nat) : Vec F S1x2048x64 .f32 :=
  fun y => X (ix3 (⟨b % 16, Nat.mod_lt _ (by decide)⟩ : Fin 16) (⟨(y 1).val, (y 1).isLt⟩ : Fin 2048) (⟨(y 2).val, (y 2).isLt⟩ : Fin 64))

/-- The six [16, 2048, 64] arrays as the region finds them, at their literal type. -/
abbrev arr0 (c : Dev nD) : Vec F S16x2048x64 .f32 := V m c main_v0
abbrev arr1 (c : Dev nD) : Vec F S16x2048x64 .f32 := V m c main_v1
abbrev arr2 (c : Dev nD) : Vec F S16x2048x64 .f32 := V m c main_v2
abbrev arr3 (c : Dev nD) : Vec F S16x2048x64 .f32 := V m c main_v3
abbrev arr4 (c : Dev nD) : Vec F S16x2048x64 .f32 := V m c main_v4
abbrev arr5 (c : Dev nD) : Vec F S16x2048x64 .f32 := V m c main_v5

/-- The key and value windows' blocks at point t are head t / 8's rows. -/
theorem blk2_eq (c : Dev nD) (t : Fin cfg0.N) : (iblk m c 2 t : Vec F S1x2048x64 .f32) = headBlk (arr2 m c) (t.val / 8) := by
  have hN : t.val < 128 := lt_of_lt_of_eq t.isLt (show cfg0.N = 128 from N_0)
  obtain ⟨-, -, ⟨e0, e1, e2⟩, -⟩ := idx_facts t
  funext y
  unfold iblk headBlk
  rw [View.read_apply]
  show V m c main_v2 _ = V m c main_v2 _
  congr 1
  funext a
  apply Fin.ext
  match a with
  | ⟨0, _⟩ => show win0_2.index t (0 : Fin 3) * 1 + 1 * (y 0).val = (t.val / 8) % 16; rw [e0]; have h0 : (y 0).val < 1 := (y 0).isLt; omega
  | ⟨1, _⟩ => show win0_2.index t (1 : Fin 3) * 2048 + 1 * (y 1).val = (y 1).val; rw [e1]; omega
  | ⟨2, _⟩ => show win0_2.index t (2 : Fin 3) * 64 + 1 * (y 2).val = (y 2).val; rw [e2]; omega

theorem blk3_eq (c : Dev nD) (t : Fin cfg0.N) : (iblk m c 3 t : Vec F S1x2048x64 .f32) = headBlk (arr3 m c) (t.val / 8) := by
  have hN : t.val < 128 := lt_of_lt_of_eq t.isLt (show cfg0.N = 128 from N_0)
  obtain ⟨-, -, -, ⟨e0, e1, e2⟩, -⟩ := idx_facts t
  funext y
  unfold iblk headBlk
  rw [View.read_apply]
  show V m c main_v3 _ = V m c main_v3 _
  congr 1
  funext a
  apply Fin.ext
  match a with
  | ⟨0, _⟩ => show win0_3.index t (0 : Fin 3) * 1 + 1 * (y 0).val = (t.val / 8) % 16; rw [e0]; have h0 : (y 0).val < 1 := (y 0).isLt; omega
  | ⟨1, _⟩ => show win0_3.index t (1 : Fin 3) * 2048 + 1 * (y 1).val = (y 1).val; rw [e1]; omega
  | ⟨2, _⟩ => show win0_3.index t (2 : Fin 3) * 64 + 1 * (y 2).val = (y 2).val; rw [e2]; omega

theorem blk4_eq (c : Dev nD) (t : Fin cfg0.N) : (iblk m c 4 t : Vec F S1x2048x64 .f32) = headBlk (arr4 m c) (t.val / 8) := by
  have hN : t.val < 128 := lt_of_lt_of_eq t.isLt (show cfg0.N = 128 from N_0)
  obtain ⟨-, -, -, -, ⟨e0, e1, e2⟩, -⟩ := idx_facts t
  funext y
  unfold iblk headBlk
  rw [View.read_apply]
  show V m c main_v4 _ = V m c main_v4 _
  congr 1
  funext a
  apply Fin.ext
  match a with
  | ⟨0, _⟩ => show win0_4.index t (0 : Fin 3) * 1 + 1 * (y 0).val = (t.val / 8) % 16; rw [e0]; have h0 : (y 0).val < 1 := (y 0).isLt; omega
  | ⟨1, _⟩ => show win0_4.index t (1 : Fin 3) * 2048 + 1 * (y 1).val = (y 1).val; rw [e1]; omega
  | ⟨2, _⟩ => show win0_4.index t (2 : Fin 3) * 64 + 1 * (y 2).val = (y 2).val; rw [e2]; omega

theorem blk5_eq (c : Dev nD) (t : Fin cfg0.N) : (iblk m c 5 t : Vec F S1x2048x64 .f32) = headBlk (arr5 m c) (t.val / 8) := by
  have hN : t.val < 128 := lt_of_lt_of_eq t.isLt (show cfg0.N = 128 from N_0)
  obtain ⟨-, -, -, -, -, ⟨e0, e1, e2⟩, -⟩ := idx_facts t
  funext y
  unfold iblk headBlk
  rw [View.read_apply]
  show V m c main_v5 _ = V m c main_v5 _
  congr 1
  funext a
  apply Fin.ext
  match a with
  | ⟨0, _⟩ => show win0_5.index t (0 : Fin 3) * 1 + 1 * (y 0).val = (t.val / 8) % 16; rw [e0]; have h0 : (y 0).val < 1 := (y 0).isLt; omega
  | ⟨1, _⟩ => show win0_5.index t (1 : Fin 3) * 2048 + 1 * (y 1).val = (y 1).val; rw [e1]; omega
  | ⟨2, _⟩ => show win0_5.index t (2 : Fin 3) * 64 + 1 * (y 2).val = (y 2).val; rw [e2]; omega

/-! ## The four tables after every point -/

/-- The tables a point leaves, named. -/
abbrev tab0 (c : Dev nD) (n : Nat) : Vec F S2048x128 .bf16 := k0_pay5 (headBlk (arr2 m c) (n / 8)) (headBlk (arr3 m c) (n / 8))
abbrev tab1 (c : Dev nD) (n : Nat) : Vec F S2048x128 .bf16 := k0_pay6 (headBlk (arr2 m c) (n / 8)) (headBlk (arr3 m c) (n / 8))
abbrev tab2 (c : Dev nD) (n : Nat) : Vec F S2048x64 .bf16 := k0_pay7 (headBlk (arr4 m c) (n / 8))
abbrev tab3 (c : Dev nD) (n : Nat) : Vec F S2048x64 .bf16 := k0_pay8 (headBlk (arr5 m c) (n / 8))

/-- After point n the four tables hold the packing of head n / 8: refilled at the head's first tile, kept at the
    others (where (n − 1) / 8 = n / 8). -/
theorem tables_eq (c : Dev nD) : ∀ (n : ℕ) (h : n < cfg0.N),
    (outsAt0 m c n h).2.2.1 = tab0 m c n ∧ (outsAt0 m c n h).2.2.2.1 = tab1 m c n
      ∧ (outsAt0 m c n h).2.2.2.2.1 = tab2 m c n ∧ (outsAt0 m c n h).2.2.2.2.2 = tab3 m c n
  | 0, h => by
    have h0 : (⟨0, h⟩ : Fin cfg0.N).val % 8 = 0 := rfl
    rw [outsAt0_A m c ⟨0, h⟩ h0]
    dsimp only
    refine ⟨?_, ?_, ?_, ?_⟩
    · rw [table0_first]; unfold tab0; rw [blk2_eq, blk3_eq]
    · rw [table1_first]; unfold tab1; rw [blk2_eq, blk3_eq]
    · rw [table2_first]; unfold tab2; rw [blk4_eq]
    · rw [table3_first]; unfold tab3; rw [blk5_eq]
  | n + 1, h => by
    by_cases h0 : (n + 1) % 8 = 0
    · rw [outsAt0_A m c ⟨n + 1, h⟩ h0]
      dsimp only
      refine ⟨?_, ?_, ?_, ?_⟩
      · rw [table0_first]; unfold tab0; rw [blk2_eq, blk3_eq]
      · rw [table1_first]; unfold tab1; rw [blk2_eq, blk3_eq]
      · rw [table2_first]; unfold tab2; rw [blk4_eq]
      · rw [table3_first]; unfold tab3; rw [blk5_eq]
    · obtain ⟨i0, i1, i2, i3⟩ := tables_eq c n (Nat.lt_of_succ_lt h)
      have hd : (n + 1) / 8 = n / 8 := by omega
      rw [outsAt0_B m c ⟨n + 1, h⟩ h0]
      dsimp only [sout0_B_0, sout0_B_1, sout0_B_2, sout0_B_3]
      refine ⟨?_, ?_, ?_, ?_⟩
      · show (outsAt0 m c n _).2.2.1 = _; rw [i0]; unfold tab0; rw [hd]
      · show (outsAt0 m c n _).2.2.2.1 = _; rw [i1]; unfold tab1; rw [hd]
      · show (outsAt0 m c n _).2.2.2.2.1 = _; rw [i2]; unfold tab2; rw [hd]
      · show (outsAt0 m c n _).2.2.2.2.2 = _; rw [i3]; unfold tab3; rw [hd]

/-! ## What a point writes back -/

/-- Point t's real query tile, at its literal type. -/
abbrev qrT (c : Dev nD) (t : Fin cfg0.N) : Vec F S1x256x64 .f32 := iblk m c 0 t
/-- Point t's imaginary query tile, at its literal type. -/
abbrev qiT (c : Dev nD) (t : Fin cfg0.N) : Vec F S1x256x64 .f32 := iblk m c 1 t

/-- The weights tile of point t: the body's arithmetic of the point's query tile and head t / 8's packed key tables. -/
theorem weights_at (c : Dev nD) (t : Fin cfg0.N) :
    (outsAt0 m c t.val t.isLt).1 = k0_pay10 (qrT m c t) (qiT m c t) (tab0 m c t.val) (tab1 m c t.val) := by
  by_cases h0 : t.val % 8 = 0
  · rw [outsAt0_A m c t h0]
    dsimp only
    rw [weights_first]
    unfold tab0 tab1
    rw [blk2_eq, blk3_eq]
  · obtain ⟨i0, i1, -, -⟩ := tables_eq m c (t.val - 1) (Nat.lt_of_le_of_lt (Nat.sub_le _ _) t.isLt)
    have hd : (t.val - 1) / 8 = t.val / 8 := by omega
    rw [outsAt0_B m c t h0]
    dsimp only
    rw [weights_later, i0, i1]
    unfold tab0 tab1
    rw [hd]

/-- The real mixed-value plane of point t. -/
theorem mixed_at0 (c : Dev nD) (t : Fin cfg0.N) (r : Fin 256) (d : Fin 64) :
    (outsAt0 m c t.val t.isLt).2.1 (ix4 (0 : Fin 2) (0 : Fin 1) r d)
      = k0_pay1 (k0_pay11 (qrT m c t) (qiT m c t) (tab0 m c t.val) (tab1 m c t.val)) (tab2 m c t.val) (ix4 (0 : Fin 1) (0 : Fin 1) r d) := by
  by_cases h0 : t.val % 8 = 0
  · rw [outsAt0_A m c t h0]
    dsimp only
    rw [mixed_first_at0]
    unfold tab0 tab1 tab2
    rw [blk2_eq, blk3_eq, blk4_eq]
  · obtain ⟨i0, i1, i2, -⟩ := tables_eq m c (t.val - 1) (Nat.lt_of_le_of_lt (Nat.sub_le _ _) t.isLt)
    have hd : (t.val - 1) / 8 = t.val / 8 := by omega
    rw [outsAt0_B m c t h0]
    dsimp only
    rw [mixed_later_at0, i0, i1, i2]
    unfold tab0 tab1 tab2
    rw [hd]

/-- The imaginary mixed-value plane of point t. -/
theorem mixed_at1 (c : Dev nD) (t : Fin cfg0.N) (r : Fin 256) (d : Fin 64) :
    (outsAt0 m c t.val t.isLt).2.1 (ix4 (1 : Fin 2) (0 : Fin 1) r d)
      = k0_pay2 (k0_pay11 (qrT m c t) (qiT m c t) (tab0 m c t.val) (tab1 m c t.val)) (tab3 m c t.val) (ix4 (0 : Fin 1) (0 : Fin 1) r d) := by
  by_cases h0 : t.val % 8 = 0
  · rw [outsAt0_A m c t h0]
    dsimp only
    rw [mixed_first_at1]
    unfold tab0 tab1 tab3
    rw [blk2_eq, blk3_eq, blk5_eq]
  · obtain ⟨i0, i1, -, i3⟩ := tables_eq m c (t.val - 1) (Nat.lt_of_le_of_lt (Nat.sub_le _ _) t.isLt)
    have hd : (t.val - 1) / 8 = t.val / 8 := by omega
    rw [outsAt0_B m c t h0]
    dsimp only
    rw [mixed_later_at1, i0, i1, i3]
    unfold tab0 tab1 tab3
    rw [hd]

/-! ## Where a point reads its blocks -/

/-- The head of point n. -/
def hd (n : Nat) : Fin 16 := ⟨(n / 8) % 16, Nat.mod_lt _ (by decide)⟩
/-- The query position of row r of point n's tile. -/
def pos (n : Nat) (r : Fin 256) : Fin 2048 := ⟨(256 * (n % 8) + r.val) % 2048, Nat.mod_lt _ (by decide)⟩

/-- Row k of head n / 8's block is row k of head `hd n` of the array. -/
theorem headBlk_apply (X : S16x2048x64.Idx → Elt F .f32) (n : Nat) (k : Fin 2048) (d : Fin 64) :
    headBlk X (n / 8) (ix3 (0 : Fin 1) k d) = X (ix3 (hd n) k d) := rfl

/-- Row r of point t's real query tile. -/
theorem blk0_apply (c : Dev nD) (t : Fin cfg0.N) (r : Fin 256) (d : Fin 64) :
    qrT m c t (ix3 (0 : Fin 1) r d) = arr0 m c (ix3 (hd t.val) (pos t.val r) d) := by
  show (iblk m c 0 t : Vec F S1x256x64 .f32) (ix3 (0 : Fin 1) r d) = _
  have hN : t.val < 128 := lt_of_lt_of_eq t.isLt (show cfg0.N = 128 from N_0)
  obtain ⟨⟨e0, e1, e2⟩, -⟩ := idx_facts t
  unfold iblk hd pos
  rw [View.read_apply]
  show V m c main_v0 _ = V m c main_v0 _
  congr 1
  funext a
  apply Fin.ext
  match a with
  | ⟨0, _⟩ => show win0_0.index t (0 : Fin 3) * 1 + 1 * 0 = (t.val / 8) % 16; rw [e0]; omega
  | ⟨1, _⟩ => show win0_0.index t (1 : Fin 3) * 256 + 1 * r.val = (256 * (t.val % 8) + r.val) % 2048; rw [e1]; have := r.isLt; omega
  | ⟨2, _⟩ => show win0_0.index t (2 : Fin 3) * 64 + 1 * d.val = d.val; rw [e2]; omega

/-- Row r of point t's imaginary query tile. -/
theorem blk1_apply (c : Dev nD) (t : Fin cfg0.N) (r : Fin 256) (d : Fin 64) :
    qiT m c t (ix3 (0 : Fin 1) r d) = arr1 m c (ix3 (hd t.val) (pos t.val r) d) := by
  show (iblk m c 1 t : Vec F S1x256x64 .f32) (ix3 (0 : Fin 1) r d) = _
  have hN : t.val < 128 := lt_of_lt_of_eq t.isLt (show cfg0.N = 128 from N_0)
  obtain ⟨-, ⟨e0, e1, e2⟩, -⟩ := idx_facts t
  unfold iblk hd pos
  rw [View.read_apply]
  show V m c main_v1 _ = V m c main_v1 _
  congr 1
  funext a
  apply Fin.ext
  match a with
  | ⟨0, _⟩ => show win0_1.index t (0 : Fin 3) * 1 + 1 * 0 = (t.val / 8) % 16; rw [e0]; omega
  | ⟨1, _⟩ => show win0_1.index t (1 : Fin 3) * 256 + 1 * r.val = (256 * (t.val % 8) + r.val) % 2048; rw [e1]; have := r.isLt; omega
  | ⟨2, _⟩ => show win0_1.index t (2 : Fin 3) * 64 + 1 * d.val = d.val; rw [e2]; omega

end Cert.KernelIdeal.Attn

end
-- ==== Proof.KernelPayload.lean ====
/-
  The kernel body's arithmetic, read at an index, at the ideal instance.

  The body works on one tile of 256 query positions against all 2048 key positions of one head. It reads the query
  tile's real and imaginary features (two [1, 256, 64] blocks) and two [2048, 128] tables of packed key features, and
  forms: the two score tables as 128-term contractions, their modulus, the row-wise soft-max (multiplying by the
  reciprocal of the row sum), and the products of the weights with the two [2048, 64] value tables. The packed key
  tables and the value tables are themselves simple functions of the key and value blocks.

  Every lemma below states one of those stored values at explicit coordinates, in the vocabulary of the
  specification (`Cert.CAttn`).
-/
import proofs.«411658_j88433376624754_3_alg».proof.Proof.Gen.KernelIdeal.Skeleton
import proofs.«411658_j88433376624754_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.CAttn.Payload

open Cert.KernelIdeal Cert.KernelIdeal.Gen Idealize.ShloMosaic Idealize.ShloMosaic.ValueIdx Cert.CAttn

/-- Row `r` of a query tile. -/
def tileRow (x : Vec Ideal S1x256x64 .f32) (r : Fin 256) : Row := fun d => x (ix3 0 r d)

/-- Row `k` of a packed key table. -/
def packedRow (s : Vec Ideal S2048x128 .bf16) (k : Fin 2048) : Fin 128 → EReal := fun j => s (ix2 k j)

/-! ## The packed key tables and the value tables -/

/-- A key block with its unit axis dropped and every feature multiplied by the word 0.125 (the first operand
    of both packed tables). -/
theorem pay3_apply (x : Vec Ideal S1x2048x64 .f32) (k : Fin 2048) (d : Fin 64) :
    k0_pay3 (F := Ideal) x (ix2 k d) = (x (ix3 0 k d) : EReal) * wEighth := by
  unfold k0_pay3
  exact congrArg (fun t : EReal => t * wEighth) (shapeCast_1ab_ab_apply x _ k d)

/-- The same chain of operations on the other key block. -/
theorem pay4_apply (x : Vec Ideal S1x2048x64 .f32) (k : Fin 2048) (d : Fin 64) :
    k0_pay4 (F := Ideal) x (ix2 k d) = (x (ix3 0 k d) : EReal) * wEighth := by
  unfold k0_pay4
  exact congrArg (fun t : EReal => t * wEighth) (shapeCast_1ab_ab_apply x _ k d)

theorem pay5_lo (x2 x3 : Vec Ideal S1x2048x64 .f32) (k : Fin 2048) (d : Fin 64) :
    k0_pay5 (F := Ideal) x2 x3 (ix2 k (lo d)) = (x2 (ix3 0 k d) : EReal) * wEighth := by
  unfold k0_pay5
  rw [shapeCast_self]
  refine (concatenate_pair_apply_left (s₁ := S2048x64) (s₂ := S2048x64) (1 : Fin 2) _ _ _ (ix2 k (lo d)) rfl (ix2 k d) (fun b => ?_)).trans
    (pay3_apply x2 k d)
  match b with
  | ⟨0, _⟩ => rfl
  | ⟨1, _⟩ => rfl

theorem pay5_hi (x2 x3 : Vec Ideal S1x2048x64 .f32) (k : Fin 2048) (d : Fin 64) :
    k0_pay5 (F := Ideal) x2 x3 (ix2 k (hi d)) = (x3 (ix3 0 k d) : EReal) * wEighth := by
  unfold k0_pay5
  rw [shapeCast_self]
  refine (concatenate_pair_apply_right (s₁ := S2048x64) (s₂ := S2048x64) (1 : Fin 2) _ _ _ (ix2 k (hi d)) rfl rfl (ix2 k d) (fun b hb => ?_) rfl).trans
    (pay4_apply x3 k d)
  match b, hb with
  | ⟨0, _⟩, _ => rfl
  | ⟨1, _⟩, hb => exact absurd rfl hb

theorem pay6_lo (x2 x3 : Vec Ideal S1x2048x64 .f32) (k : Fin 2048) (d : Fin 64) :
    k0_pay6 (F := Ideal) x2 x3 (ix2 k (lo d)) = (x3 (ix3 0 k d) : EReal) * wEighth := by
  unfold k0_pay6
  rw [shapeCast_self]
  refine (concatenate_pair_apply_left (s₁ := S2048x64) (s₂ := S2048x64) (1 : Fin 2) _ _ _ (ix2 k (lo d)) rfl (ix2 k d) (fun b => ?_)).trans
    (pay4_apply x3 k d)
  match b with
  | ⟨0, _⟩ => rfl
  | ⟨1, _⟩ => rfl

theorem pay6_hi (x2 x3 : Vec Ideal S1x2048x64 .f32) (k : Fin 2048) (d : Fin 64) :
    k0_pay6 (F := Ideal) x2 x3 (ix2 k (hi d)) = wZeroB - (x2 (ix3 0 k d) : EReal) * wEighth := by
  unfold k0_pay6
  rw [shapeCast_self]
  refine (concatenate_pair_apply_right (s₁ := S2048x64) (s₂ := S2048x64) (1 : Fin 2) _ _ _ (ix2 k (hi d)) rfl rfl (ix2 k d) (fun b hb => ?_) rfl).trans
    (congrArg (fun t : EReal => wZeroB - t) (pay3_apply x2 k d))
  match b, hb with
  | ⟨0, _⟩, _ => rfl
  | ⟨1, _⟩, hb => exact absurd rfl hb

theorem pay7_apply (x4 : Vec Ideal S1x2048x64 .f32) (k : Fin 2048) (d : Fin 64) :
    k0_pay7 (F := Ideal) x4 (ix2 k d) = (x4 (ix3 0 k d) : EReal) := by
  unfold k0_pay7
  rw [shapeCast_self]
  exact shapeCast_1ab_ab_apply x4 _ k d

theorem pay8_apply (x5 : Vec Ideal S1x2048x64 .f32) (k : Fin 2048) (d : Fin 64) :
    k0_pay8 (F := Ideal) x5 (ix2 k d) = (x5 (ix3 0 k d) : EReal) := by
  unfold k0_pay8
  rw [shapeCast_self]
  exact shapeCast_1ab_ab_apply x5 _ k d

/-! ## The attention weights of a tile -/

/-- The two query blocks, each with its unit axis dropped, side by side: the [256, 128] table [qr | qi]. -/
def queryT (x0 x1 : Vec Ideal S1x256x64 .f32) : FVec Ideal S256x128 .bf16 :=
  have v4 : FVec Ideal S256x64 .f32 := shapeCast S256x64 x0 shapeCasts_S1x256x64_S256x64
  have v5 : FVec Ideal S256x64 .bf16 := truncf .bf16 v4 bitsLt_bf16_f32
  have v7 : FVec Ideal S256x64 .f32 := shapeCast S256x64 x1 shapeCasts_S1x256x64_S256x64
  have v8 : FVec Ideal S256x64 .bf16 := truncf .bf16 v7 bitsLt_bf16_f32
  concatenate S256x128 1 [⟨S256x64, v5⟩, ⟨S256x64, v8⟩] concatenates_S256x64_S256x64_S256x128_d1

/-- Its first half is the real query row … -/
theorem queryT_lo (x0 x1 : Vec Ideal S1x256x64 .f32) (r : Fin 256) (d : Fin 64) :
    queryT x0 x1 (ix2 r (lo d)) = tileRow x0 r d := by
  unfold queryT
  refine (concatenate_pair_apply_left (s₁ := S256x64) (s₂ := S256x64) (1 : Fin 2) _ _ _ (ix2 r (lo d)) rfl (ix2 r d)
    (fun b => ?_)).trans (shapeCast_1ab_ab_apply x0 _ r d)
  match b with
  | ⟨0, _⟩ => rfl
  | ⟨1, _⟩ => rfl

/-- … and its second half the imaginary one. -/
theorem queryT_hi (x0 x1 : Vec Ideal S1x256x64 .f32) (r : Fin 256) (d : Fin 64) :
    queryT x0 x1 (ix2 r (hi d)) = tileRow x1 r d := by
  unfold queryT
  refine (concatenate_pair_apply_right (s₁ := S256x64) (s₂ := S256x64) (1 : Fin 2) _ _ _ (ix2 r (hi d)) rfl rfl (ix2 r d)
    (fun b hb => ?_) rfl).trans (shapeCast_1ab_ab_apply x1 _ r d)
  match b, hb with
  | ⟨0, _⟩, _ => rfl
  | ⟨1, _⟩, hb => exact absurd rfl hb

/-- The query-times-keys product's left operand at output (r, k) and contraction position q: row r … -/
theorem lhsQK_0 (i : S256x2048.Idx) (q : dot_S256x128_S128x2048_S256x2048_1_0_0_1_n_n.contr.Idx) :
    (dot_S256x128_S128x2048_S256x2048_1_0_0_1_n_n.lhsIdx i q 0).val = (i 0).val := by
  unfold DotDims.lhsIdx
  rw [dif_neg (show ¬(0 : Fin S256x128.rank) ∈ dot_S256x128_S128x2048_S256x2048_1_0_0_1_n_n.lhsBatch by decide),
    dif_pos (show (0 : Fin S256x128.rank) ∈ dot_S256x128_S128x2048_S256x2048_1_0_0_1_n_n.lhsNonContracting by decide)]
  rfl
/-- … column q. -/
theorem lhsQK_1 (i : S256x2048.Idx) (q : dot_S256x128_S128x2048_S256x2048_1_0_0_1_n_n.contr.Idx) :
    (dot_S256x128_S128x2048_S256x2048_1_0_0_1_n_n.lhsIdx i q 1).val = (q ⟨0, by decide⟩).val :=
  dot_S256x128_S128x2048_S256x2048_1_0_0_1_n_n.lhsIdx_val_of_single rfl i q
/-- The right operand: row q … -/
theorem rhsQK_0 (i : S256x2048.Idx) (q : dot_S256x128_S128x2048_S256x2048_1_0_0_1_n_n.contr.Idx) :
    (dot_S256x128_S128x2048_S256x2048_1_0_0_1_n_n.rhsIdx i q 0).val = (q ⟨0, by decide⟩).val :=
  dot_S256x128_S128x2048_S256x2048_1_0_0_1_n_n.rhsIdx_val_of_single rfl i q
/-- … column k. -/
theorem rhsQK_1 (i : S256x2048.Idx) (q : dot_S256x128_S128x2048_S256x2048_1_0_0_1_n_n.contr.Idx) :
    (dot_S256x128_S128x2048_S256x2048_1_0_0_1_n_n.rhsIdx i q 1).val = (i 1).val := by
  unfold DotDims.rhsIdx
  rw [dif_neg (show ¬(1 : Fin S128x2048.rank) ∈ dot_S256x128_S128x2048_S256x2048_1_0_0_1_n_n.rhsBatch by decide),
    dif_pos (show (1 : Fin S128x2048.rank) ∈ dot_S256x128_S128x2048_S256x2048_1_0_0_1_n_n.rhsNonContracting by decide)]
  rfl

/-- A [256, 128] by [128, 2048] product into the zero accumulator, read at (r, k): a 128-term sum. -/
theorem matmulQK_apply (q : FVec Ideal S256x128 .bf16) (t : FVec Ideal S128x2048 .bf16) (r : Fin 256) (k : Fin 2048) :
    matmul dot_S256x128_S128x2048_S256x2048_1_0_0_1_n_n none q t (constant (F := Ideal) S256x2048 .f32 0x00000000#32) (ix2 r k)
      = ∑ j : Fin 128, (q (ix2 r j) : EReal) * (t (ix2 j k) : EReal) := by
  refine (Ideal.matmul_constant_zero_apply dot_S256x128_S128x2048_S256x2048_1_0_0_1_n_n none q t (ix2 r k)).trans ?_
  rw [← Equiv.sum_comp (contrEquiv1 dot_S256x128_S128x2048_S256x2048_1_0_0_1_n_n 128 rfl rfl).symm]
  refine Finset.sum_congr rfl fun j _ => ?_
  have hj := contrEquiv1_symm_val dot_S256x128_S128x2048_S256x2048_1_0_0_1_n_n 128 rfl rfl j
  have el : dot_S256x128_S128x2048_S256x2048_1_0_0_1_n_n.lhsIdx (ix2 r k)
      ((contrEquiv1 dot_S256x128_S128x2048_S256x2048_1_0_0_1_n_n 128 rfl rfl).symm j) = ix2 r j :=
    funext fun a => Fin.ext (by
      match a with
      | ⟨0, _⟩ => exact lhsQK_0 _ _
      | ⟨1, _⟩ => exact (lhsQK_1 _ _).trans hj)
  have er : dot_S256x128_S128x2048_S256x2048_1_0_0_1_n_n.rhsIdx (ix2 r k)
      ((contrEquiv1 dot_S256x128_S128x2048_S256x2048_1_0_0_1_n_n 128 rfl rfl).symm j) = ix2 j k :=
    funext fun a => Fin.ext (by
      match a with
      | ⟨0, _⟩ => exact (rhsQK_0 _ _).trans hj
      | ⟨1, _⟩ => exact rhsQK_1 _ _)
  rw [el, er]

/-- A score table: the query table against a packed key table transposed, into the zero accumulator. -/
def scoreT (q : FVec Ideal S256x128 .bf16) (s : Vec Ideal S2048x128 .bf16) : FVec Ideal S256x2048 .f32 :=
  have v11 : FVec Ideal S128x2048 .bf16 := transpose S128x2048 [1, 0] s transposes_S2048x128_p1_0_S128x2048
  have cst : FVec Ideal S256x2048 .f32 := constant S256x2048 .f32 0x00000000#32
  matmul dot_S256x128_S128x2048_S256x2048_1_0_0_1_n_n none q v11 cst

/-- At (r, k) it contracts row r of the query table with row k of the packed key table. -/
theorem scoreT_apply (q : FVec Ideal S256x128 .bf16) (s : Vec Ideal S2048x128 .bf16) (r : Fin 256) (k : Fin 2048) :
    scoreT q s (ix2 r k) = ∑ j : Fin 128, (q (ix2 r j) : EReal) * packedRow s k j := by
  unfold scoreT
  refine (matmulQK_apply q _ r k).trans (Finset.sum_congr rfl fun j _ => ?_)
  exact congrArg (fun t : EReal => (q (ix2 r j) : EReal) * t) (transpose_ix2_apply s _ j k)

/-- Split into its two 64-term halves, that is the score of the specification. -/
theorem score_dotS (x0 x1 : Vec Ideal S1x256x64 .f32) (s : Vec Ideal S2048x128 .bf16) (r : Fin 256) (k : Fin 2048) :
    scoreT (queryT x0 x1) s (ix2 r k) = dotS (tileRow x0 r) (tileRow x1 r) (packedRow s k) := by
  rw [scoreT_apply, sum_halves]
  unfold dotS
  congr 1
  · exact Finset.sum_congr rfl fun d _ => congrArg (fun t : EReal => t * packedRow s k (lo d)) (queryT_lo x0 x1 r d)
  · exact Finset.sum_congr rfl fun d _ => congrArg (fun t : EReal => t * packedRow s k (hi d)) (queryT_hi x0 x1 r d)

/-- The modulus table of two score tables. -/
def modT (a b : FVec Ideal S256x2048 .f32) : FVec Ideal S256x2048 .f32 :=
  sqrt (addf (mulf a a) (mulf b b))

theorem modT_apply (a b : FVec Ideal S256x2048 .f32) (i : S256x2048.Idx) :
    modT a b i = modulus (a i) (b i) := rfl

/-- A row-wise maximum from −∞ read at row r: the fold of max over the row's 2048 entries. -/
theorem rowMax_read (M : FVec Ideal S256x2048 .f32) (r : Fin 256) :
    multiReduction .maximumf [1] S256 M 0xFF800000#32 reduces_S256x2048_S256 (.inl rfl) rfl (ix1 r)
      = rowMax (fun k => (M (ix2 r k) : EReal)) := by
  refine (Ideal.multiReduction_maximumf_single M _ reduces_S256x2048_S256 _ _ (ix1 r)).trans ?_
  have hl : (fun k : Fin 2048 => (M (reduces_S256x2048_S256.lift (ix1 r) k) : EReal)) = fun k => (M (ix2 r k) : EReal) :=
    funext fun k => congrArg M (funext fun a => Fin.ext (by
      match a with
      | ⟨0, _⟩ => rfl
      | ⟨1, _⟩ => rfl))
  exact congrArg (fun f : Fin 2048 → EReal => (Finset.univ : Finset (Fin 2048)).fold max wNegInf f) hl

/-- A row-wise sum from zero read at row r: the sum of the row's 2048 entries. -/
theorem rowSum_read (E : FVec Ideal S256x2048 .f32) (r : Fin 256) :
    multiReduction .add [1] S256 E 0x00000000#32 reduces_S256x2048_S256 (.inl rfl) rfl (ix1 r)
      = ∑ k : Fin 2048, (E (ix2 r k) : EReal) := by
  refine (Ideal.multiReduction_add_single E _ reduces_S256x2048_S256 _ _ (ix1 r)).trans ?_
  have hl : (fun k : Fin 2048 => (E (reduces_S256x2048_S256.lift (ix1 r) k) : EReal)) = fun k => (E (ix2 r k) : EReal) :=
    funext fun k => congrArg E (funext fun a => Fin.ext (by
      match a with
      | ⟨0, _⟩ => rfl
      | ⟨1, _⟩ => rfl))
  exact congrArg (fun f : Fin 2048 → EReal => ∑ k : Fin 2048, f k) hl

/-- A [256] vector cast to a [256, 1] column reads, at (r, 0), the vector at r. -/
theorem keep_apply (v : FVec Ideal S256 .f32) (r : Fin 256) :
    shapeCast S256x1 v shapeCasts_S256_S256x1 (ix2 r (0 : Fin 1)) = v (ix1 r) :=
  shapeCast_apply v shapeCasts_S256_S256x1 _ _ (by
    rw [Shape.rowMajor_val_one, Shape.rowMajor_val_two]
    show r.val = r.val * 1 + (0 : Fin 1).val
    simp)

/-- A [256, 1] column broadcast to [256, 2048] reads, at (r, k), the column at (r, 0). -/
theorem bcast_apply (w : FVec Ideal S256x1 .f32) (r : Fin 256) (k : Fin 2048) :
    broadcastTo S256x2048 w broadcasts_S256x1_S256x2048 (ix2 r k) = w (ix2 r (0 : Fin 1)) := by
  refine broadcastTo_apply w broadcasts_S256x1_S256x2048 (ix2 r k) (ix2 r (0 : Fin 1)) fun a => ?_
  match a with
  | ⟨0, _⟩ => rfl
  | ⟨1, _⟩ => rfl

/-- The exponentials of a table's entries less their row's maximum. -/
def expT (M : FVec Ideal S256x2048 .f32) : FVec Ideal S256x2048 .f32 :=
  have v20 : FVec Ideal S256 .f32 := multiReduction .maximumf [1] S256 M 0xFF800000#32 reduces_S256x2048_S256 (.inl rfl) rfl
  have v21 : FVec Ideal S256x1 .f32 := shapeCast S256x1 v20 shapeCasts_S256_S256x1
  have v22 : FVec Ideal S256x2048 .f32 := broadcastTo S256x2048 v21 broadcasts_S256x1_S256x2048
  have v23 : FVec Ideal S256x2048 .f32 := subf M v22
  exp v23

theorem expT_apply (M : FVec Ideal S256x2048 .f32) (r : Fin 256) (k : Fin 2048) :
    expT M (ix2 r k) = Ideal.exp ((M (ix2 r k) : EReal) - rowMax (fun k' => (M (ix2 r k') : EReal))) := by
  unfold expT
  exact congrArg (fun t : EReal => Ideal.exp ((M (ix2 r k) : EReal) - t))
    (((bcast_apply _ r k).trans (keep_apply _ r)).trans (rowMax_read M r))

/-- The soft-max of a table along its rows, multiplying by the reciprocal of the row sum. -/
def softT (M : FVec Ideal S256x2048 .f32) : FVec Ideal S256x2048 .f32 :=
  have v24 : FVec Ideal S256x2048 .f32 := expT M
  have v25 : FVec Ideal S256 .f32 := multiReduction .add [1] S256 v24 0x00000000#32 reduces_S256x2048_S256 (.inl rfl) rfl
  have v26 : FVec Ideal S256x1 .f32 := shapeCast S256x1 v25 shapeCasts_S256_S256x1
  have cst_13 : Ideal .f32 := Scalar.ofBits .f32 0x3F800000#32
  have v27 : FVec Ideal S256x1 .f32 := broadcast S256x1 cst_13
  have v28 : FVec Ideal S256x1 .f32 := divf v27 v26
  have v29 : FVec Ideal S256x2048 .f32 := broadcastTo S256x2048 v28 broadcasts_S256x1_S256x2048
  mulf v24 v29

theorem softT_apply (M : FVec Ideal S256x2048 .f32) (r : Fin 256) (k : Fin 2048) :
    softT M (ix2 r k) = normK (fun k' => (M (ix2 r k') : EReal)) k := by
  have hsum : multiReduction .add [1] S256 (expT M) 0x00000000#32 reduces_S256x2048_S256 (.inl rfl) rfl (ix1 r)
      = ∑ k' : Fin 2048, Ideal.exp ((M (ix2 r k') : EReal) - rowMax (fun k'' => (M (ix2 r k'') : EReal))) :=
    (rowSum_read (expT M) r).trans (Finset.sum_congr rfl fun k' _ => expT_apply M r k')
  unfold softT normK
  refine congr (congrArg (fun a b : EReal => a * b) (expT_apply M r k)) ?_
  refine (bcast_apply _ r k).trans ?_
  exact congrArg (fun t : EReal => Ideal.div wOne t) ((keep_apply _ r).trans hsum)

/-- The body's weight table is the soft-max of the modulus table of the two score tables. -/
theorem pay9_eq (x0 x1 : Vec Ideal S1x256x64 .f32) (s0 s1 : Vec Ideal S2048x128 .bf16) :
    k0_pay9 (F := Ideal) x0 x1 s0 s1
      = softT (modT (scoreT (queryT x0 x1) s0) (scoreT (queryT x0 x1) s1)) := rfl

theorem pay9_apply (x0 x1 : Vec Ideal S1x256x64 .f32) (s0 s1 : Vec Ideal S2048x128 .bf16) (r : Fin 256) (k : Fin 2048) :
    k0_pay9 (F := Ideal) x0 x1 s0 s1 (ix2 r k)
      = normK (fun k' => modulus (dotS (tileRow x0 r) (tileRow x1 r) (packedRow s0 k'))
                                 (dotS (tileRow x0 r) (tileRow x1 r) (packedRow s1 k'))) k := by
  rw [pay9_eq, softT_apply]
  refine congrArg (fun f : Fin 2048 → EReal => normK f k) (funext fun k' => ?_)
  rw [modT_apply, score_dotS, score_dotS]

theorem pay10_apply (x0 x1 : Vec Ideal S1x256x64 .f32) (s0 s1 : Vec Ideal S2048x128 .bf16) (r : Fin 256) (k : Fin 2048) :
    k0_pay10 (F := Ideal) x0 x1 s0 s1 (ix3 0 r k) = k0_pay9 (F := Ideal) x0 x1 s0 s1 (ix2 r k) := by
  unfold k0_pay10
  exact shapeCast_ab_1ab_apply _ _ (0 : Fin 1) r k

theorem pay11_apply (x0 x1 : Vec Ideal S1x256x64 .f32) (s0 s1 : Vec Ideal S2048x128 .bf16) (r : Fin 256) (k : Fin 2048) :
    k0_pay11 (F := Ideal) x0 x1 s0 s1 (ix2 r k) = k0_pay9 (F := Ideal) x0 x1 s0 s1 (ix2 r k) := rfl

/-! ## The mixed values of a tile -/

/-- The weights-times-values product's left operand at output (r, d) and contraction position q: row r. -/
theorem lhsPV_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl
/-- … column q. -/
theorem lhsPV_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
/-- The right operand: row q … -/
theorem rhsPV_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
/-- … column d. -/
theorem rhsPV_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-- A [256, 2048] by [2048, 64] product into the zero accumulator, read at (r, d): the sum over the 2048 key
    positions of the weight times the value feature. -/
theorem matmulPV_apply (p : FVec Ideal S256x2048 .bf16) (v : Vec Ideal S2048x64 .bf16) (r : Fin 256) (d : Fin 64) :
    matmul (φ₁ := .bf16) (φ₂ := .bf16) dot_S256x2048_S2048x64_S256x64_1_0_0_1_n_n none p v (constant (F := Ideal) S256x64 .f32 0x00000000#32) (ix2 r d)
      = ∑ k : Fin 2048, (p (ix2 r k) : EReal) * (v (ix2 k d) : EReal) := by
  refine (Ideal.matmul_constant_zero_apply dot_S256x2048_S2048x64_S256x64_1_0_0_1_n_n none p v (ix2 r d)).trans ?_
  rw [← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r d)
      ((contrEquiv1 dot_S256x2048_S2048x64_S256x64_1_0_0_1_n_n 2048 rfl rfl).symm k) = ix2 r k :=
    funext fun a => Fin.ext (by
      match a with
      | ⟨0, _⟩ => exact lhsPV_0 _ _
      | ⟨1, _⟩ => exact (lhsPV_1 _ _).trans hk)
  have er : dot_S256x2048_S2048x64_S256x64_1_0_0_1_n_n.rhsIdx (ix2 r d)
      ((contrEquiv1 dot_S256x2048_S2048x64_S256x64_1_0_0_1_n_n 2048 rfl rfl).symm k) = ix2 k d :=
    funext fun a => Fin.ext (by
      match a with
      | ⟨0, _⟩ => exact (rhsPV_0 _ _).trans hk
      | ⟨1, _⟩ => exact rhsPV_1 _ _)
  rw [el, er]

/-- A [256, 64] array cast to [1, 1, 256, 64] reads, at (0, 0, r, d), the operand at (r, d). -/
theorem shapeCast_rd_11rd (x : S256x64.Idx → EReal) (h : S256x64.ShapeCasts S1x1x256x64) (r : Fin 256) (d : Fin 64) :
    shapeCast S1x1x256x64 x h (ix4 0 0 r d) = x (ix2 r d) :=
  shapeCast_apply x h _ _ (by
    rw [Shape.rowMajor_val_two, Shape.rowMajor_val_four]
    show r.val * 64 + d.val = (((0 : Fin 1).val * 1 + (0 : Fin 1).val) * 256 + r.val) * 64 + d.val
    simp)

theorem pay1_apply (p : FVec Ideal S256x2048 .bf16) (v : Vec Ideal S2048x64 .bf16) (r : Fin 256) (d : Fin 64) :
    k0_pay1 (F := Ideal) p v (ix4 0 0 r d) = ∑ k : Fin 2048, (p (ix2 r k) : EReal) * (v (ix2 k d) : EReal) := by
  unfold k0_pay1
  exact (shapeCast_rd_11rd _ _ r d).trans (matmulPV_apply p v r d)

theorem pay2_apply (p : FVec Ideal S256x2048 .bf16) (v : Vec Ideal S2048x64 .bf16) (r : Fin 256) (d : Fin 64) :
    k0_pay2 (F := Ideal) p v (ix4 0 0 r d) = ∑ k : Fin 2048, (p (ix2 r k) : EReal) * (v (ix2 k d) : EReal) := by
  unfold k0_pay2
  exact (shapeCast_rd_11rd _ _ r d).trans (matmulPV_apply p v r d)

end Cert.CAttn.Payload

end
-- ==== Proof.KernelArrays.lean ====
/-
  The kernel's run, read as values (part 2: the two result arrays).

  Point t writes back one [1, 256, 2048] tile of attention weights — rows 256·(t % 8) … of head t / 8 — and one
  [2, 1, 256, 64] tile of mixed values. Read at an index, with the body's arithmetic opened, a weight is the
  specification's folded-arrangement attention weight of that query row against head t / 8's keys, and a mixed value
  is the mix of those weights with head t / 8's real (plane 0) or imaginary (plane 1) value rows. The tiles of the
  128 points cover the two arrays exactly, so the arrays end as those functions of the [16, 2048, 64] arrays the
  region finds.
-/
import proofs.«411658_j88433376624754_3_alg».proof.Proof.KernelPoints
import proofs.«411658_j88433376624754_3_alg».proof.Proof.KernelPayload
import proofs.«411658_j88433376624754_3_alg».proof.Proof.Spec
import Idealize.ShloMosaic.Lib.Pipeline.Value
import Idealize.ShloMosaic.Lib.ValueIdx

noncomputable section

namespace Cert.KernelIdeal.Attn

open Cert.KernelIdeal Cert.KernelIdeal.Gen Cert.KernelIdeal.Pieces
open Idealize.ShloMosaic Idealize.ShloMosaic.TcCoe Idealize.SL.Sem Idealize.ShloMosaic.ValueIdx
open Idealize.ShloMosaic.Pipeline (Dat)
open Cert.CAttn Cert.CAttn.Payload

variable (m : (ℓ : Loc nD τ sig) → Buf (Elt Ideal) ℓ) (ρ : Dev nD → PrngReg)

/-- The features of position q of head b of a [16, 2048, 64] array. -/
def row3 (X : S16x2048x64.Idx → EReal) (b : Fin 16) (q : Fin 2048) : Row := fun d => X (ix3 b q d)
/-- All positions of head b. -/
def keys3 (X : S16x2048x64.Idx → EReal) (b : Fin 16) : Keys := fun k d => X (ix3 b k d)

/-- Every position of a 128-wide axis lies in one of its halves. -/
theorem lo_or_hi (j : Fin 128) : (∃ d, j = lo d) ∨ (∃ d, j = hi d) := by
  by_cases h : j.val < 64
  · exact Or.inl ⟨⟨j.val, h⟩, Fin.ext rfl⟩
  · exact Or.inr ⟨⟨j.val - 64, by have := j.isLt; omega⟩, Fin.ext (by show j.val = j.val - 64 + 64; omega)⟩

/-- Row k of the first packed key table of head `hd n`. -/
theorem tab0_row (c : Dev nD) (n : Nat) (k : Fin 2048) :
    packedRow (tab0 m c n) k = packRe (keys3 (arr2 m c) (hd n) k) (keys3 (arr3 m c) (hd n) k) := by
  funext j
  rcases lo_or_hi j with ⟨d, rfl⟩ | ⟨d, rfl⟩
  · show k0_pay5 (F := Ideal) _ _ (ix2 k (lo d)) = _
    rw [pay5_lo, packRe_lo, headBlk_apply]; rfl
  · show k0_pay5 (F := Ideal) _ _ (ix2 k (hi d)) = _
    rw [pay5_hi, packRe_hi, headBlk_apply]; rfl

/-- Row k of the second packed key table of head `hd n`. -/
theorem tab1_row (c : Dev nD) (n : Nat) (k : Fin 2048) :
    packedRow (tab1 m c n) k = packIm (keys3 (arr2 m c) (hd n) k) (keys3 (arr3 m c) (hd n) k) := by
  funext j
  rcases lo_or_hi j with ⟨d, rfl⟩ | ⟨d, rfl⟩
  · show k0_pay6 (F := Ideal) _ _ (ix2 k (lo d)) = _
    rw [pay6_lo, packIm_lo, headBlk_apply]; rfl
  · show k0_pay6 (F := Ideal) _ _ (ix2 k (hi d)) = _
    rw [pay6_hi, packIm_hi, headBlk_apply]; rfl

/-- Row r of point t's query tiles. -/
theorem tile0_row (c : Dev nD) (t : Fin cfg0.N) (r : Fin 256) :
    tileRow (qrT m c t) r = row3 (arr0 m c) (hd t.val) (pos t.val r) :=
  funext fun d => blk0_apply m c t r d
theorem tile1_row (c : Dev nD) (t : Fin cfg0.N) (r : Fin 256) :
    tileRow (qiT m c t) r = row3 (arr1 m c) (hd t.val) (pos t.val r) :=
  funext fun d => blk1_apply m c t r d

/-- The attention weights point t computes for row r of its tile. -/
abbrev wts (c : Dev nD) (n : Nat) (r : Fin 256) : Fin 2048 → EReal :=
  attnK (row3 (arr0 m c) (hd n) (pos n r)) (row3 (arr1 m c) (hd n) (pos n r))
    (keys3 (arr2 m c) (hd n)) (keys3 (arr3 m c) (hd n))

/-- The body's weights at (r, k) are the specification's. -/
theorem pay9_val (c : Dev nD) (t : Fin cfg0.N) (r : Fin 256) (k : Fin 2048) :
    k0_pay9 (F := Ideal) (qrT m c t) (qiT m c t) (tab0 m c t.val) (tab1 m c t.val) (ix2 r k) = wts m c t.val r k := by
  refine (pay9_apply (qrT m c t) (qiT m c t) (tab0 m c t.val) (tab1 m c t.val) r k).trans ?_
  unfold wts attnK magK
  rw [tile0_row, tile1_row]
  refine congrArg (fun x => normK x k) (funext fun k' => ?_)
  rw [tab0_row, tab1_row]

/-- What point t writes back to the weights array, at (r, k). -/
theorem weights_val (c : Dev nD) (t : Fin cfg0.N) (r : Fin 256) (k : Fin 2048) :
    (outsAt0 m c t.val t.isLt).1 (ix3 (0 : Fin 1) r k) = wts m c t.val r k := by
  rw [weights_at]
  refine (pay10_apply (qrT m c t) (qiT m c t) (tab0 m c t.val) (tab1 m c t.val) r k).trans ?_
  exact pay9_val m c t r k

/-- What point t writes back to the mixed-values array, real plane, at (r, d). -/
theorem mixed_val0 (c : Dev nD) (t : Fin cfg0.N) (r : Fin 256) (d : Fin 64) :
    (outsAt0 m c t.val t.isLt).2.1 (ix4 (0 : Fin 2) (0 : Fin 1) r d) = mix (wts m c t.val r) (keys3 (arr4 m c) (hd t.val)) d := by
  rw [mixed_at0]
  refine (pay1_apply _ (tab2 m c t.val) r d).trans ?_
  unfold mix
  refine Finset.sum_congr rfl fun k _ => ?_
  have hv : (tab2 m c t.val (ix2 k d) : EReal) = keys3 (arr4 m c) (hd t.val) k d := by
    show k0_pay7 (F := Ideal) (headBlk (arr4 m c) (t.val / 8)) (ix2 k d) = _
    rw [pay7_apply, headBlk_apply]
    unfold keys3
    rfl
  rw [pay11_apply, pay9_val, hv]

/-- The same, imaginary plane. -/
theorem mixed_val1 (c : Dev nD) (t : Fin cfg0.N) (r : Fin 256) (d : Fin 64) :
    (outsAt0 m c t.val t.isLt).2.1 (ix4 (1 : Fin 2) (0 : Fin 1) r d) = mix (wts m c t.val r) (keys3 (arr5 m c) (hd t.val)) d := by
  rw [mixed_at1]
  refine (pay2_apply _ (tab3 m c t.val) r d).trans ?_
  unfold mix
  refine Finset.sum_congr rfl fun k _ => ?_
  have hv : (tab3 m c t.val (ix2 k d) : EReal) = keys3 (arr5 m c) (hd t.val) k d := by
    show k0_pay8 (F := Ideal) (headBlk (arr5 m c) (t.val / 8)) (ix2 k d) = _
    rw [pay8_apply, headBlk_apply]
    unfold keys3
    rfl
  rw [pay11_apply, pay9_val, hv]

/-! ## The two arrays after the run -/

/-- The weights array as the run leaves it: entry (b, q, k) is the weight of query q of head b on key k. -/
def G6 (c : Dev nD) : Vec Ideal S16x2048x2048 .f32 := fun i =>
  attnK (row3 (arr0 m c) (i 0) (i 1)) (row3 (arr1 m c) (i 0) (i 1)) (keys3 (arr2 m c) (i 0)) (keys3 (arr3 m c) (i 0)) (i 2)

/-- The mixed-values array as the run leaves it: plane 0 from the real value rows, plane 1 from the imaginary ones. -/
def G7 (c : Dev nD) : Vec Ideal S2x16x2048x64 .f32 := fun i =>
  mix (attnK (row3 (arr0 m c) (i 1) (i 2)) (row3 (arr1 m c) (i 1) (i 2)) (keys3 (arr2 m c) (i 1)) (keys3 (arr3 m c) (i 1)))
    (keys3 (if (i 0).val = 0 then arr4 m c else arr5 m c) (i 1)) (i 3)

/-- What point t writes back to the weights array is its tile of `G6`. -/
theorem flushed6_eq (c : Dev nD) (t : Fin cfg0.N) :
    (dats m 0 c).flushed 6 t = ((cfg0.win 6).blk t).view.read (Elt Ideal) (G6 m c) := by
  have hN : t.val < 128 := lt_of_lt_of_eq t.isLt (show cfg0.N = 128 from N_0)
  obtain ⟨-, -, -, -, -, -, ⟨e0, e1, e2⟩, -⟩ := idx_facts t
  show (cfg0.win 6).cut (grid0.coords t) ((dats m 0 c).after 6 t) = _
  rw [after0_6]
  funext y
  obtain ⟨r, k, rfl⟩ : ∃ (r : Fin 256) (k : Fin 2048), y = ix3 (0 : Fin 1) r k :=
    ⟨⟨(y 1).val, (y 1).isLt⟩, ⟨(y 2).val, (y 2).isLt⟩, funext fun a => Fin.ext (by
      match a with
      | ⟨0, _⟩ => have h0 : (y 0).val < 1 := (y 0).isLt; show (y 0).val = 0; omega
      | ⟨1, _⟩ => rfl
      | ⟨2, _⟩ => rfl)⟩
  rw [View.read_apply]
  have he : ((cfg0.win 6).blk t).view.emb (ix3 (0 : Fin 1) r k) = ix3 (hd t.val) (pos t.val r) k := by
    funext a
    apply Fin.ext
    match a with
    | ⟨0, _⟩ => show win0_6.index t (0 : Fin 3) * 1 + 1 * 0 = (t.val / 8) % 16; rw [e0]; omega
    | ⟨1, _⟩ => show win0_6.index t (1 : Fin 3) * 256 + 1 * r.val = (256 * (t.val % 8) + r.val) % 2048; rw [e1]; have := r.isLt; omega
    | ⟨2, _⟩ => show win0_6.index t (2 : Fin 3) * 2048 + 1 * k.val = k.val; rw [e2]; omega
  show (outsAt0 m c t.val t.isLt).1 (ix3 (0 : Fin 1) r k) = G6 m c (((cfg0.win 6).blk t).view.emb (ix3 (0 : Fin 1) r k))
  rw [weights_val, he]
  rfl

/-- An index of the weights array is in point t's tile iff each coordinate is in the tile's range. -/
theorem mem_blk6 (t : Fin cfg0.N) (i : S16x2048x2048.Idx) :
    i ∈ ((cfg0.win 6).blk t).view.set ↔ ∀ a : Fin 3, win0_6.index t a * S1x256x2048.size a ≤ (i a).val ∧ (i a).val < win0_6.index t a * S1x256x2048.size a + S1x256x2048.size a := by
  show i ∈ ((View.whole main_v6_0).slice (win0_6.rect t)).set ↔ _
  rw [View.set_slice_whole, Rect.mem_set_unit]
  exact Iff.rfl

/-- The tiles cover the weights array: index (b, q, k) is in the tile of point 8·b + q / 256. -/
theorem cover6 (i : S16x2048x2048.Idx) :
    ∃ t : Fin cfg0.N, (cfg0.win 6).flush t = true ∧ i ∈ ((cfg0.win 6).blk t).view.set := by
  have hN : cfg0.N = 128 := N_0
  have h0 : (i 0).val < 16 := (i 0).isLt
  have h1 : (i 1).val < 2048 := (i 1).isLt
  have h2 : (i 2).val < 2048 := (i 2).isLt
  have hlt : 8 * (i 0).val + (i 1).val / 256 < cfg0.N := by rw [hN]; omega
  obtain ⟨-, -, -, -, -, -, ⟨e0, e1, e2⟩, -⟩ := idx_facts ⟨8 * (i 0).val + (i 1).val / 256, hlt⟩
  have e0' : win0_6.index ⟨8 * (i 0).val + (i 1).val / 256, hlt⟩ (0 : Fin 3) = (8 * (i 0).val + (i 1).val / 256) / 8 := e0
  have e1' : win0_6.index ⟨8 * (i 0).val + (i 1).val / 256, hlt⟩ (1 : Fin 3) = (8 * (i 0).val + (i 1).val / 256) % 8 := e1
  refine ⟨⟨8 * (i 0).val + (i 1).val / 256, hlt⟩, flush0_6 _, ?_⟩
  rw [mem_blk6]
  intro a
  match a with
  | ⟨0, _⟩ => show win0_6.index _ (0 : Fin 3) * 1 ≤ (i 0).val ∧ (i 0).val < win0_6.index _ (0 : Fin 3) * 1 + 1; rw [e0']; omega
  | ⟨1, _⟩ => show win0_6.index _ (1 : Fin 3) * 256 ≤ (i 1).val ∧ (i 1).val < win0_6.index _ (1 : Fin 3) * 256 + 256; rw [e1']; omega
  | ⟨2, _⟩ => show win0_6.index _ (2 : Fin 3) * 2048 ≤ (i 2).val ∧ (i 2).val < win0_6.index _ (2 : Fin 3) * 2048 + 2048; rw [e2]; omega

/-- The weights array after the run. -/
theorem final6 (c : Dev nD) : (dats m 0 c).arrAt 6 cfg0.N = G6 m c :=
  (dats m 0 c).arrAt_eq_of_cover 6 (G6 m c) (fun t _ => flushed6_eq m c t) cover6

/-- What point t writes back to the mixed-values array is its tile of `G7`. -/
theorem flushed7_eq (c : Dev nD) (t : Fin cfg0.N) :
    (dats m 0 c).flushed 7 t = ((cfg0.win 7).blk t).view.read (Elt Ideal) (G7 m c) := by
  have hN : t.val < 128 := lt_of_lt_of_eq t.isLt (show cfg0.N = 128 from N_0)
  obtain ⟨-, -, -, -, -, -, -, ⟨e0, e1, e2, e3⟩⟩ := idx_facts t
  show (cfg0.win 7).cut (grid0.coords t) ((dats m 0 c).after 7 t) = _
  rw [after0_7]
  funext y
  obtain ⟨s, r, d, rfl⟩ : ∃ (s : Fin 2) (r : Fin 256) (d : Fin 64), y = ix4 s (0 : Fin 1) r d :=
    ⟨⟨(y 0).val, (y 0).isLt⟩, ⟨(y 2).val, (y 2).isLt⟩, ⟨(y 3).val, (y 3).isLt⟩, funext fun a => Fin.ext (by
      match a with
      | ⟨0, _⟩ => rfl
      | ⟨1, _⟩ => have h0 : (y 1).val < 1 := (y 1).isLt; show (y 1).val = 0; omega
      | ⟨2, _⟩ => rfl
      | ⟨3, _⟩ => rfl)⟩
  rw [View.read_apply]
  have he : ((cfg0.win 7).blk t).view.emb (ix4 s (0 : Fin 1) r d) = ix4 s (hd t.val) (pos t.val r) d := by
    funext a
    apply Fin.ext
    match a with
    | ⟨0, _⟩ => show win0_7.index t (0 : Fin 4) * 2 + 1 * s.val = s.val; rw [e0]; omega
    | ⟨1, _⟩ => show win0_7.index t (1 : Fin 4) * 1 + 1 * 0 = (t.val / 8) % 16; rw [e1]; omega
    | ⟨2, _⟩ => show win0_7.index t (2 : Fin 4) * 256 + 1 * r.val = (256 * (t.val % 8) + r.val) % 2048; rw [e2]; have := r.isLt; omega
    | ⟨3, _⟩ => show win0_7.index t (3 : Fin 4) * 64 + 1 * d.val = d.val; rw [e3]; omega
  show (outsAt0 m c t.val t.isLt).2.1 (ix4 s (0 : Fin 1) r d) = G7 m c (((cfg0.win 7).blk t).view.emb (ix4 s (0 : Fin 1) r d))
  rw [he]
  have hs : s = (0 : Fin 2) ∨ s = (1 : Fin 2) := by
    rcases s with ⟨v, hv⟩
    rcases v with _ | _ | v
    · exact Or.inl rfl
    · exact Or.inr rfl
    · omega
  rcases hs with rfl | rfl
  · rw [mixed_val0]; rfl
  · rw [mixed_val1]; rfl

/-- An index of the mixed-values array is in point t's tile iff each coordinate is in the tile's range. -/
theorem mem_blk7 (t : Fin cfg0.N) (i : S2x16x2048x64.Idx) :
    i ∈ ((cfg0.win 7).blk t).view.set ↔ ∀ a : Fin 4, win0_7.index t a * S2x1x256x64.size a ≤ (i a).val ∧ (i a).val < win0_7.index t a * S2x1x256x64.size a + S2x1x256x64.size a := by
  show i ∈ ((View.whole main_v6_1).slice (win0_7.rect t)).set ↔ _
  rw [View.set_slice_whole, Rect.mem_set_unit]
  exact Iff.rfl

/-- The tiles cover the mixed-values array: index (s, b, q, d) is in the tile of point 8·b + q / 256. -/
theorem cover7 (i : S2x16x2048x64.Idx) :
    ∃ t : Fin cfg0.N, (cfg0.win 7).flush t = true ∧ i ∈ ((cfg0.win 7).blk t).view.set := by
  have hN : cfg0.N = 128 := N_0
  have h0 : (i 0).val < 2 := (i 0).isLt
  have h1 : (i 1).val < 16 := (i 1).isLt
  have h2 : (i 2).val < 2048 := (i 2).isLt
  have h3 : (i 3).val < 64 := (i 3).isLt
  have hlt : 8 * (i 1).val + (i 2).val / 256 < cfg0.N := by rw [hN]; omega
  obtain ⟨-, -, -, -, -, -, -, ⟨e0, e1, e2, e3⟩⟩ := idx_facts ⟨8 * (i 1).val + (i 2).val / 256, hlt⟩
  have e1' : win0_7.index ⟨8 * (i 1).val + (i 2).val / 256, hlt⟩ (1 : Fin 4) = (8 * (i 1).val + (i 2).val / 256) / 8 := e1
  have e2' : win0_7.index ⟨8 * (i 1).val + (i 2).val / 256, hlt⟩ (2 : Fin 4) = (8 * (i 1).val + (i 2).val / 256) % 8 := e2
  refine ⟨⟨8 * (i 1).val + (i 2).val / 256, hlt⟩, flush0_7 _, ?_⟩
  rw [mem_blk7]
  intro a
  match a with
  | ⟨0, _⟩ => show win0_7.index _ (0 : Fin 4) * 2 ≤ (i 0).val ∧ (i 0).val < win0_7.index _ (0 : Fin 4) * 2 + 2; rw [e0]; omega
  | ⟨1, _⟩ => show win0_7.index _ (1 : Fin 4) * 1 ≤ (i 1).val ∧ (i 1).val < win0_7.index _ (1 : Fin 4) * 1 + 1; rw [e1']; omega
  | ⟨2, _⟩ => show win0_7.index _ (2 : Fin 4) * 256 ≤ (i 2).val ∧ (i 2).val < win0_7.index _ (2 : Fin 4) * 256 + 256; rw [e2']; omega
  | ⟨3, _⟩ => show win0_7.index _ (3 : Fin 4) * 64 ≤ (i 3).val ∧ (i 3).val < win0_7.index _ (3 : Fin 4) * 64 + 64; rw [e3]; omega

/-- The mixed-values array after the run. -/
theorem final7 (c : Dev nD) : (dats m 0 c).arrAt 7 cfg0.N = G7 m c :=
  (dats m 0 c).arrAt_eq_of_cover 7 (G7 m c) (fun t _ => flushed7_eq m c t) cover7

end Cert.KernelIdeal.Attn

end
-- ==== Proof.KernelRun.lean ====
/-
  The kernel's run, read as values (part 3: the program's two results).

  Before the launch the program reshapes each [2, 8, 2048, 64] argument to [16, 2048, 64] (head 8·b + h of the
  reshaped array is head h of batch b), and after it reshapes the weights array [16, 2048, 2048] to
  [2, 8, 2048, 2048] and the mixed-values array [2, 16, 2048, 64] to [2, 2, 8, 2048, 64]. Read through those
  reshapes, the two results are the specification's `probs` and `outs` of the arguments in the folded arrangement.
-/
import proofs.«411658_j88433376624754_3_alg».proof.Proof.KernelArrays
import Idealize.ShloMosaic.Lib.StableHlo.Run
import Idealize.ShloMosaic.Lib.Pipeline.Value
import Idealize.ShloMosaic.Lib.ValueIdx

noncomputable section

namespace Cert.KernelIdeal.Attn

open Cert.KernelIdeal Cert.KernelIdeal.Gen Cert.KernelIdeal.Pieces
open Idealize.ShloMosaic Idealize.ShloMosaic.TcCoe Idealize.SL.Sem Idealize.ShloMosaic.ValueIdx
open Idealize.ShloMosaic.Pipeline (Dat)
open Cert.CAttn Cert.CAttn.Payload

variable (m : (ℓ : Loc nD τ sig) → Buf (Elt Ideal) ℓ) (ρ : Dev nD → PrngReg)

/-- Head 8·b + h. -/
def headOf (b : Fin 2) (h : Fin 8) : Fin 16 := ⟨8 * b.val + h.val, by have := b.isLt; have := h.isLt; omega⟩

/-- The reshape [2, 8, 2048, 64] → [16, 2048, 64] read at (8·b + h, q, d). -/
theorem split_head {α : Type} (X : S2x8x2048x64.Idx → α) (b : Fin 2) (h : Fin 8) (q : Fin 2048) (d : Fin 64) :
    shapeCast S16x2048x64 X shapeCasts_S2x8x2048x64_S16x2048x64 (ix3 (headOf b h) q d) = X (ix4 b h q d) :=
  shapeCast_apply X _ _ _ (by
    rw [Shape.rowMajor_val_four, Shape.rowMajor_val_three]
    show ((b.val * 8 + h.val) * 2048 + q.val) * 64 + d.val = ((8 * b.val + h.val) * 2048 + q.val) * 64 + d.val
    omega)

/-- The six arrays the region finds are the reshaped arguments. -/
theorem arr0_eq (c : Dev nD) : arr0 m c = shapeCast S16x2048x64 (m ((c : Thread nD τ).loc main_arg0)) shapeCasts_S2x8x2048x64_S16x2048x64 := by
  show StableHlo.after hostOps0 (fun b => m (c, b)) (Proc.devRef .tc main_v0) = _
  after_results; rfl
theorem arr1_eq (c : Dev nD) : arr1 m c = shapeCast S16x2048x64 (m ((c : Thread nD τ).loc main_arg1)) shapeCasts_S2x8x2048x64_S16x2048x64 := by
  show StableHlo.after hostOps0 (fun b => m (c, b)) (Proc.devRef .tc main_v1) = _
  after_results; rfl
theorem arr2_eq (c : Dev nD) : arr2 m c = shapeCast S16x2048x64 (m ((c : Thread nD τ).loc main_arg2)) shapeCasts_S2x8x2048x64_S16x2048x64 := by
  show StableHlo.after hostOps0 (fun b => m (c, b)) (Proc.devRef .tc main_v2) = _
  after_results; rfl
theorem arr3_eq (c : Dev nD) : arr3 m c = shapeCast S16x2048x64 (m ((c : Thread nD τ).loc main_arg3)) shapeCasts_S2x8x2048x64_S16x2048x64 := by
  show StableHlo.after hostOps0 (fun b => m (c, b)) (Proc.devRef .tc main_v3) = _
  after_results; rfl
theorem arr4_eq (c : Dev nD) : arr4 m c = shapeCast S16x2048x64 (m ((c : Thread nD τ).loc main_arg4)) shapeCasts_S2x8x2048x64_S16x2048x64 := by
  show StableHlo.after hostOps0 (fun b => m (c, b)) (Proc.devRef .tc main_v4) = _
  after_results; rfl
theorem arr5_eq (c : Dev nD) : arr5 m c = shapeCast S16x2048x64 (m ((c : Thread nD τ).loc main_arg5)) shapeCasts_S2x8x2048x64_S16x2048x64 := by
  show StableHlo.after hostOps0 (fun b => m (c, b)) (Proc.devRef .tc main_v5) = _
  after_results; rfl

/-- The tail's first result is the reshaped weights array. -/
theorem tail7 (c : Dev nD) :
    Pipeline.afterTail₀ cfgs (dats m) 0 (V0 m) [hostOps1] c main_v7
      = shapeCast S2x8x2048x2048 ((dats m 0 c).arrAt 6 cfg0.N) shapeCasts_S16x2048x2048_S2x8x2048x2048 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6_0)
      = (dats m 0 c).arrAt 6 cfg0.N := Pipeline.withArrays_arr spec0 launch0.win.arr_inj c _ _ 6
  rw [e]
  rfl

/-- The tail's second result is the reshaped mixed-values array. -/
theorem tail8 (c : Dev nD) :
    Pipeline.afterTail₀ cfgs (dats m) 0 (V0 m) [hostOps1] c main_v8
      = shapeCast S2x2x8x2048x64 ((dats m 0 c).arrAt 7 cfg0.N) shapeCasts_S2x16x2048x64_S2x2x8x2048x64 := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v6_1)
      = (dats m 0 c).arrAt 7 cfg0.N := Pipeline.withArrays_arr spec0 launch0.win.arr_inj c _ _ 7
  rw [e]
  rfl

/-! ## Rows and heads through the first reshape -/

theorem row0_split (c : Dev nD) (b : Fin 2) (h : Fin 8) (q : Fin 2048) :
    row3 (arr0 m c) (headOf b h) q = rowOf (m ((c.tc : Thread nD τ).loc main_arg0)) b h q := by
  funext d; unfold row3 rowOf; rw [arr0_eq]; exact split_head _ b h q d
theorem row1_split (c : Dev nD) (b : Fin 2) (h : Fin 8) (q : Fin 2048) :
    row3 (arr1 m c) (headOf b h) q = rowOf (m ((c.tc : Thread nD τ).loc main_arg1)) b h q := by
  funext d; unfold row3 rowOf; rw [arr1_eq]; exact split_head _ b h q d
theorem keys2_split (c : Dev nD) (b : Fin 2) (h : Fin 8) :
    keys3 (arr2 m c) (headOf b h) = keysOf (m ((c.tc : Thread nD τ).loc main_arg2)) b h := by
  funext k d; unfold keys3 keysOf; rw [arr2_eq]; exact split_head _ b h k d
theorem keys3_split (c : Dev nD) (b : Fin 2) (h : Fin 8) :
    keys3 (arr3 m c) (headOf b h) = keysOf (m ((c.tc : Thread nD τ).loc main_arg3)) b h := by
  funext k d; unfold keys3 keysOf; rw [arr3_eq]; exact split_head _ b h k d
theorem keys4_split (c : Dev nD) (b : Fin 2) (h : Fin 8) :
    keys3 (arr4 m c) (headOf b h) = keysOf (m ((c.tc : Thread nD τ).loc main_arg4)) b h := by
  funext k d; unfold keys3 keysOf; rw [arr4_eq]; exact split_head _ b h k d
theorem keys5_split (c : Dev nD) (b : Fin 2) (h : Fin 8) :
    keys3 (arr5 m c) (headOf b h) = keysOf (m ((c.tc : Thread nD τ).loc main_arg5)) b h := by
  funext k d; unfold keys3 keysOf; rw [arr5_eq]; exact split_head _ b h k d

/-! ## The two results -/

/-- The program's second result: the attention weights of every head and query. -/
theorem weights_result (c : Dev nD) :
    Pipeline.afterTail₀ cfgs (dats m) 0 (V0 m) [hostOps1] c main_v7
      = probs attnK (m ((c.tc : Thread nD τ).loc main_arg0)) (m ((c.tc : Thread nD τ).loc main_arg1)) (m ((c.tc : Thread nD τ).loc main_arg2)) (m ((c.tc : Thread nD τ).loc main_arg3)) := by
  rw [tail7, final6]
  funext i
  obtain ⟨b, h, q, k, rfl⟩ : ∃ (b : Fin 2) (h : Fin 8) (q k : Fin 2048), i = ix4 b h q k := ⟨i 0, i 1, i 2, i 3, eq_ix4 i⟩
  refine (shapeCast_apply (G6 m c) _ (ix4 b h q k) (ix3 (headOf b h) q k) (by
    rw [Shape.rowMajor_val_three, Shape.rowMajor_val_four]
    show ((8 * b.val + h.val) * 2048 + q.val) * 2048 + k.val = ((b.val * 8 + h.val) * 2048 + q.val) * 2048 + k.val
    omega)).trans ?_
  show attnK (row3 (arr0 m c) (headOf b h) q) (row3 (arr1 m c) (headOf b h) q) (keys3 (arr2 m c) (headOf b h)) (keys3 (arr3 m c) (headOf b h)) k
    = attnK (rowOf (m ((c.tc : Thread nD τ).loc main_arg0)) b h q) (rowOf (m ((c.tc : Thread nD τ).loc main_arg1)) b h q) (keysOf (m ((c.tc : Thread nD τ).loc main_arg2)) b h) (keysOf (m ((c.tc : Thread nD τ).loc main_arg3)) b h) k
  rw [row0_split, row1_split, keys2_split, keys3_split]

/-- The program's first result: the mixed values, real plane then imaginary plane. -/
theorem mixed_result (c : Dev nD) :
    Pipeline.afterTail₀ cfgs (dats m) 0 (V0 m) [hostOps1] c main_v8
      = outs attnK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [tail8, final7]
  funext i
  obtain ⟨s, b, h, q, d, rfl⟩ : ∃ (s : Fin 2) (b : Fin 2) (h : Fin 8) (q : Fin 2048) (d : Fin 64), i = ix5 s b h q d :=
    ⟨i 0, i 1, i 2, i 3, i 4, eq_ix5 i⟩
  refine (shapeCast_apply (G7 m c) _ (ix5 s b h q d) (ix4 s (headOf b h) q d) (by
    rw [Shape.rowMajor_val_four, Shape.rowMajor_val_five]
    show ((s.val * 16 + (8 * b.val + h.val)) * 2048 + q.val) * 64 + d.val = (((s.val * 2 + b.val) * 8 + h.val) * 2048 + q.val) * 64 + d.val
    omega)).trans ?_
  show mix (attnK (row3 (arr0 m c) (headOf b h) q) (row3 (arr1 m c) (headOf b h) q) (keys3 (arr2 m c) (headOf b h)) (keys3 (arr3 m c) (headOf b h)))
      (keys3 (if s.val = 0 then arr4 m c else arr5 m c) (headOf b h)) d
    = mix (attnK (rowOf (m ((c.tc : Thread nD τ).loc main_arg0)) b h q) (rowOf (m ((c.tc : Thread nD τ).loc main_arg1)) b h q) (keysOf (m ((c.tc : Thread nD τ).loc main_arg2)) b h) (keysOf (m ((c.tc : Thread nD τ).loc main_arg3)) b h))
      (keysOf (if s.val = 0 then (m ((c.tc : Thread nD τ).loc main_arg4)) else (m ((c.tc : Thread nD τ).loc main_arg5))) b h) d
  rw [row0_split, row1_split, keys2_split, keys3_split]
  by_cases hs : s.val = 0
  · rw [if_pos hs, if_pos hs, keys4_split]
  · rw [if_neg hs, if_neg hs, keys5_split]

/-- Every weakly fair execution of the program ends with its two results at the folded arrangement of its
    arguments, and the arguments unchanged. -/
theorem run : θ_run (defs (F := Ideal)) (onTc (τ := τ) (main (F := Ideal))) ⟨m, fun _ => 0, ρ⟩ fun r => ∀ c : Dev nD,
      r.2.mem ((c.tc : Thread nD τ).loc main_v8)
          = outs attnK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v7)
          = probs attnK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v8 (Pipeline.mem_restRefs_of main_v8 (by decide) (by decide))).trans (mixed_result m c),
      ((h c).2 main_v7 (Pipeline.mem_restRefs_of main_v7 (by decide) (by decide))).trans (weights_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Attn

end
-- ==== Proof.RefRun.lean ====
/-
  The reference program's results, as the specification's textbook arrangement.

  The reference forms the four real inner products of the query and key features by batched contractions, combines and
  scales them by 1 / sqrt 64, takes the modulus, soft-maxes along the key axis (maximum guarded against −∞, row sum
  started from zero, division by the row sum), contracts the weights with the real and with the imaginary value
  features, and stacks the two results along a new leading axis.
-/
import proofs.«411658_j88433376624754_3_alg».proof.Defs
import proofs.«411658_j88433376624754_3_alg».proof.Proof.RefReadGen
import proofs.«411658_j88433376624754_3_alg».proof.Proof.Spec
import Idealize.ShloMosaic.Lib.ValueIdx
import Idealize.ShloMosaic.Lib.Pipeline.Value
import Idealize.ShloMosaic.PureOps.Ideal.Laws

noncomputable section

namespace Cert.CAttn.Ref

open Cert.ReferenceIdeal Cert.ReferenceIdeal.Gen Idealize.ShloMosaic Idealize.ShloMosaic.TcCoe Idealize.SL.Sem
open Idealize.ShloMosaic.ValueIdx Cert.CAttn
open Cert.ReferenceIdeal.ReadP

/-! ## Where each operation reads its operands

At the entry (b, h, q, k) of a [2, 8, 2048, 2048] array the four score contractions read the query row (b, h, q, ·) and
the key row (b, h, k, ·); the row reductions at (b, h, q) run over (b, h, q, ·); the two broadcasts back from
[2, 8, 2048] read (b, h, q). -/

section Indices

variable (b : Fin 2) (h : Fin 8) (q k : Fin 2048)

theorem lidx_v2 (d : Fin 64) : lidx_main_v2 (ix4 b h q k) d = ix4 b h q d :=
  funext fun a => Fin.ext (by match a with | ⟨0, _⟩ => rfl | ⟨1, _⟩ => rfl | ⟨2, _⟩ => rfl | ⟨3, _⟩ => rfl)
theorem ridx_v2 (d : Fin 64) : ridx_main_v2 (ix4 b h q k) d = ix4 b h k d :=
  funext fun a => Fin.ext (by match a with | ⟨0, _⟩ => rfl | ⟨1, _⟩ => rfl | ⟨2, _⟩ => rfl | ⟨3, _⟩ => rfl)
theorem lidx_v3 (d : Fin 64) : lidx_main_v3 (ix4 b h q k) d = ix4 b h q d :=
  funext fun a => Fin.ext (by match a with | ⟨0, _⟩ => rfl | ⟨1, _⟩ => rfl | ⟨2, _⟩ => rfl | ⟨3, _⟩ => rfl)
theorem ridx_v3 (d : Fin 64) : ridx_main_v3 (ix4 b h q k) d = ix4 b h k d :=
  funext fun a => Fin.ext (by match a with | ⟨0, _⟩ => rfl | ⟨1, _⟩ => rfl | ⟨2, _⟩ => rfl | ⟨3, _⟩ => rfl)
theorem lidx_v7 (d : Fin 64) : lidx_main_v7 (ix4 b h q k) d = ix4 b h q d :=
  funext fun a => Fin.ext (by match a with | ⟨0, _⟩ => rfl | ⟨1, _⟩ => rfl | ⟨2, _⟩ => rfl | ⟨3, _⟩ => rfl)
theorem ridx_v7 (d : Fin 64) : ridx_main_v7 (ix4 b h q k) d = ix4 b h k d :=
  funext fun a => Fin.ext (by match a with | ⟨0, _⟩ => rfl | ⟨1, _⟩ => rfl | ⟨2, _⟩ => rfl | ⟨3, _⟩ => rfl)
theorem lidx_v8 (d : Fin 64) : lidx_main_v8 (ix4 b h q k) d = ix4 b h q d :=
  funext fun a => Fin.ext (by match a with | ⟨0, _⟩ => rfl | ⟨1, _⟩ => rfl | ⟨2, _⟩ => rfl | ⟨3, _⟩ => rfl)
theorem ridx_v8 (d : Fin 64) : ridx_main_v8 (ix4 b h q k) d = ix4 b h k d :=
  funext fun a => Fin.ext (by match a with | ⟨0, _⟩ => rfl | ⟨1, _⟩ => rfl | ⟨2, _⟩ => rfl | ⟨3, _⟩ => rfl)

/-- The row a broadcast back from [2, 8, 2048] reads: the maximum's. -/
theorem idx_v19_v20 : idx_main_v19 (idx_main_v20 (ix4 b h q k)) = ix3 b h q :=
  funext fun a => Fin.ext (by match a with | ⟨0, _⟩ => rfl | ⟨1, _⟩ => rfl | ⟨2, _⟩ => rfl)
/-- The row a broadcast back from [2, 8, 2048] reads: the row sum's. -/
theorem idx_v24_v25 : idx_main_v24 (idx_main_v25 (ix4 b h q k)) = ix3 b h q :=
  funext fun a => Fin.ext (by match a with | ⟨0, _⟩ => rfl | ⟨1, _⟩ => rfl | ⟨2, _⟩ => rfl)
/-- The row sum at (b, h, q) runs over the entries (b, h, q, ·). -/
theorem idx_v23 (k' : Fin 2048) : idx_main_v23 (ix3 b h q) k' = ix4 b h q k' :=
  funext fun a => Fin.ext (by match a with | ⟨0, _⟩ => rfl | ⟨1, _⟩ => rfl | ⟨2, _⟩ => rfl | ⟨3, _⟩ => rfl)
/-- The row maximum at (b, h, q) runs over the entries (b, h, q, ·). -/
theorem lift_row (H : S2x8x2048x2048.Reduces [3] S2x8x2048) (k' : Fin 2048) :
    H.lift (ix3 b h q) k' = ix4 b h q k' :=
  funext fun a => Fin.ext (by match a with | ⟨0, _⟩ => rfl | ⟨1, _⟩ => rfl | ⟨2, _⟩ => rfl | ⟨3, _⟩ => rfl)

variable (d : Fin 64)

/-- The mixing contraction at (b, h, q, d) reads the weights (b, h, q, ·) … -/
theorem lidx_v27 (k' : Fin 2048) : lidx_main_v27 (ix4 b h q d) k' = ix4 b h q k' :=
  funext fun a => Fin.ext (by match a with | ⟨0, _⟩ => rfl | ⟨1, _⟩ => rfl | ⟨2, _⟩ => rfl | ⟨3, _⟩ => rfl)
/-- … and the value features (b, h, ·, d). -/
theorem ridx_v27 (k' : Fin 2048) : ridx_main_v27 (ix4 b h q d) k' = ix4 b h k' d :=
  funext fun a => Fin.ext (by match a with | ⟨0, _⟩ => rfl | ⟨1, _⟩ => rfl | ⟨2, _⟩ => rfl | ⟨3, _⟩ => rfl)
theorem lidx_v28 (k' : Fin 2048) : lidx_main_v28 (ix4 b h q d) k' = ix4 b h q k' :=
  funext fun a => Fin.ext (by match a with | ⟨0, _⟩ => rfl | ⟨1, _⟩ => rfl | ⟨2, _⟩ => rfl | ⟨3, _⟩ => rfl)
theorem ridx_v28 (k' : Fin 2048) : ridx_main_v28 (ix4 b h q d) k' = ix4 b h k' d :=
  funext fun a => Fin.ext (by match a with | ⟨0, _⟩ => rfl | ⟨1, _⟩ => rfl | ⟨2, _⟩ => rfl | ⟨3, _⟩ => rfl)
/-- The new leading unit axis is dropped. -/
theorem idx_v29 (z : Fin 1) : idx_main_v29 (ix5 z b h q d) = ix4 b h q d :=
  funext fun a => Fin.ext (by match a with | ⟨0, _⟩ => rfl | ⟨1, _⟩ => rfl | ⟨2, _⟩ => rfl | ⟨3, _⟩ => rfl)
theorem idx_v30 (z : Fin 1) : idx_main_v30 (ix5 z b h q d) = ix4 b h q d :=
  funext fun a => Fin.ext (by match a with | ⟨0, _⟩ => rfl | ⟨1, _⟩ => rfl | ⟨2, _⟩ => rfl | ⟨3, _⟩ => rfl)

end Indices

/-! ## The scores -/

/-- The scalar the sums are multiplied by is 1 / sqrt 64. -/
theorem scale_eq (j : S_.Idx) : val_main_v1 (F := Ideal) j = scaleR := rfl

/-- The modulus entry (b, h, q, k) is the textbook score modulus of query (b, h, q) against key (b, h, k). -/
theorem mag_eq (x0 x1 x2 x3 : FVec Ideal S2x8x2048x64 .f32) (b : Fin 2) (h : Fin 8) (q k : Fin 2048) :
    val_main_v15 (F := Ideal) x0 x1 x2 x3 (ix4 b h q k)
      = magR (rowOf x0 b h q) (rowOf x1 b h q) (keysOf x2 b h k) (keysOf x3 b h k) := by
  rw [val_main_v15_apply, val_main_v14_apply, val_main_v12_apply, val_main_v13_apply, val_main_v6_apply,
    val_main_v11_apply, val_main_v4_apply, val_main_v9_apply, val_main_v5_apply, val_main_v10_apply,
    val_main_v2_apply, val_main_v3_apply, val_main_v7_apply, val_main_v8_apply]
  simp only [lidx_v2, ridx_v2, lidx_v3, ridx_v3, lidx_v7, ridx_v7, lidx_v8, ridx_v8, scale_eq,
    Ideal.hostUnary_sqrt_def, Ideal.addf_def, Ideal.subf_def, Ideal.mulf_def]
  rfl

/-! ## The soft-max along the keys -/

/-- The max-reduction's entry (b, h, q) is the largest modulus of the row, from −∞. -/
theorem max_eq (x0 x1 x2 x3 : FVec Ideal S2x8x2048x64 .f32) (b : Fin 2) (h : Fin 8) (q : Fin 2048) :
    val_main_v16 (F := Ideal) x0 x1 x2 x3 (ix3 b h q)
      = rowMax fun k' => magR (rowOf x0 b h q) (rowOf x1 b h q) (keysOf x2 b h k') (keysOf x3 b h k') := by
  have H : S2x8x2048x2048.Reduces [3] S2x8x2048 := by decide
  have hf : ∀ k' : Fin 2048, (val_main_v15 (F := Ideal) x0 x1 x2 x3 ∘ H.lift (ix3 b h q)) k'
      = magR (rowOf x0 b h q) (rowOf x1 b h q) (keysOf x2 b h k') (keysOf x3 b h k') := by
    intro k'
    show val_main_v15 (F := Ideal) x0 x1 x2 x3 (H.lift (ix3 b h q) k') = _
    rw [lift_row, mag_eq]
  unfold val_main_v16
  rw [Host.reduce_eq_fold_single FloatOps.maximumf _ _ _ H _ (ix3 b h q)]
  exact congrArg (fun f : Fin 2048 → EReal => (Finset.univ : Finset (Fin 2048)).fold max wNegInf f) (funext hf)

/-- The exponential entry (b, h, q, k): the modulus less the guarded row maximum, exponentiated. -/
theorem exp_eq (x0 x1 x2 x3 : FVec Ideal S2x8x2048x64 .f32) (b : Fin 2) (h : Fin 8) (q k : Fin 2048) :
    val_main_v22 (F := Ideal) x0 x1 x2 x3 (ix4 b h q k)
      = Ideal.exp (magR (rowOf x0 b h q) (rowOf x1 b h q) (keysOf x2 b h k) (keysOf x3 b h k)
          - max wNegInf
              (rowMax fun k' => magR (rowOf x0 b h q) (rowOf x1 b h q) (keysOf x2 b h k') (keysOf x3 b h k'))) := by
  rw [val_main_v22_apply, val_main_v21_apply, val_main_v20_apply, val_main_v19_apply, val_main_v18_apply,
    val_main_v17_apply, val_main_cst_2_apply, idx_v19_v20, max_eq, mag_eq]
  rfl

/-- The attention weights the reference returns are the textbook arrangement's. -/
theorem weights_eq (x0 x1 x2 x3 : FVec Ideal S2x8x2048x64 .f32) :
    Cert.ReferenceIdeal.ReadP.val_main_v26 (F := Ideal) x0 x1 x2 x3 = probs attnR x0 x1 x2 x3 := by
  funext i
  obtain ⟨b, h, q, k, rfl⟩ : ∃ (b : Fin 2) (h : Fin 8) (q : Fin 2048) (k : Fin 2048), i = ix4 b h q k :=
    ⟨i 0, i 1, i 2, i 3, eq_ix4 i⟩
  rw [val_main_v26_apply, val_main_v25_apply, val_main_v24_apply, val_main_v23_apply, val_main_cst_3_apply,
    idx_v24_v25, exp_eq]
  simp only [idx_v23, exp_eq]
  rfl

/-! ## The mixed values -/

/-- The first contraction with the value features: the weights of query (b, h, q) mix the real value rows. -/
theorem mixRe_eq (x0 x1 x2 x3 x4 : FVec Ideal S2x8x2048x64 .f32) (b : Fin 2) (h : Fin 8) (q : Fin 2048) (d : Fin 64) :
    val_main_v27 (F := Ideal) x0 x1 x2 x3 x4 (ix4 b h q d)
      = mix (attnR (rowOf x0 b h q) (rowOf x1 b h q) (keysOf x2 b h) (keysOf x3 b h)) (keysOf x4 b h) d := by
  rw [val_main_v27_apply, weights_eq]
  simp only [lidx_v27, ridx_v27]
  rfl

/-- The second contraction with the value features: the same weights mix the imaginary value rows. -/
theorem mixIm_eq (x0 x1 x2 x3 x5 : FVec Ideal S2x8x2048x64 .f32) (b : Fin 2) (h : Fin 8) (q : Fin 2048) (d : Fin 64) :
    val_main_v28 (F := Ideal) x0 x1 x2 x3 x5 (ix4 b h q d)
      = mix (attnR (rowOf x0 b h q) (rowOf x1 b h q) (keysOf x2 b h) (keysOf x3 b h)) (keysOf x5 b h) d := by
  rw [val_main_v28_apply, weights_eq]
  simp only [lidx_v28, ridx_v28]
  rfl

/-- The stacked mixed values the reference returns are the textbook arrangement's. -/
theorem mixed_eq (x0 x1 x2 x3 x4 x5 : FVec Ideal S2x8x2048x64 .f32) :
    Cert.ReferenceIdeal.ReadP.val_main_v31 (F := Ideal) x0 x1 x2 x3 x4 x5 = outs attnR x0 x1 x2 x3 x4 x5 := by
  funext i
  obtain ⟨p, b, h, q, d, rfl⟩ : ∃ (p : Fin 2) (b : Fin 2) (h : Fin 8) (q : Fin 2048) (d : Fin 64),
      i = ix5 p b h q d := ⟨i 0, i 1, i 2, i 3, i 4, eq_ix5 i⟩
  unfold val_main_v31
  match p with
  | ⟨0, hp⟩ =>
    -- plane 0 of the stack is the first piece
    rw [concatenate_pair_apply_left (t := S2x2x8x2048x64) (s₁ := S1x2x8x2048x64) (s₂ := S1x2x8x2048x64) (0 : Fin 5) _ _ _
      (ix5 (⟨0, hp⟩ : Fin 2) b h q d) rfl (ix5 (0 : Fin 1) b h q d)
      (fun a => by match a with | ⟨0, _⟩ => rfl | ⟨1, _⟩ => rfl | ⟨2, _⟩ => rfl | ⟨3, _⟩ => rfl | ⟨4, _⟩ => rfl),
      val_main_v29_apply, idx_v29, mixRe_eq]
    rfl
  | ⟨1, hp⟩ =>
    -- plane 1 is the second piece, at its own plane 0
    rw [concatenate_pair_apply_right (t := S2x2x8x2048x64) (s₁ := S1x2x8x2048x64) (s₂ := S1x2x8x2048x64) (0 : Fin 5) _ _ _
      (ix5 (⟨1, hp⟩ : Fin 2) b h q d) rfl rfl (ix5 (0 : Fin 1) b h q d)
      (fun a ha => by
        match a, ha with
        | ⟨0, _⟩, ha => exact absurd rfl ha
        | ⟨1, _⟩, _ => rfl | ⟨2, _⟩, _ => rfl | ⟨3, _⟩, _ => rfl | ⟨4, _⟩, _ => rfl) rfl,
      val_main_v30_apply, idx_v30, mixIm_eq]
    rfl

/-- Every weakly fair execution of the reference ends with its two results at the textbook arrangement of its
    arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31)
          = outs attnR (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_v26)
          = probs attnR (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run (defs (F := Ideal)) _ _).mono (fun _ h c => ⟨(h c).1.trans ?_, (h c).2.1.trans ?_, (h c).2.2⟩)
    (Cert.ReferenceIdeal.ValueP.run (F := Ideal) m ρ)
  · exact (Cert.ReferenceIdeal.ReadP.val_main_v31_eq m c).trans (mixed_eq _ _ _ _ _ _)
  · exact (Cert.ReferenceIdeal.ReadP.val_main_v26_eq m c).trans (weights_eq _ _ _ _)

end Cert.CAttn.Ref

end
-- ==== Proof.lean ====
/-
  Complex scaled dot-product attention: the kernel and its reference compute the same extended reals.

  Both programs take the real and imaginary parts of queries, keys and values, [2, 8, 2048, 64] each, and return the
  attention weights softmax_k |q · conj(k)| / 8 and the weights' mix of the real and of the imaginary value rows.

  The kernel works head by head on tiles of 256 queries. At the first tile of a head it packs the head's keys, already
  scaled by 1/8, into two 128-wide tables [kr/8 | ki/8] and [ki/8 | 0 − kr/8], so that the real and the imaginary part
  of every score are one 128-term contraction each against [qr | qi]; it keeps those tables (and the value rows) for
  the head's other seven tiles; and it normalises the exponentials by multiplying with the reciprocal of the row sum.
  The reference forms the four 64-term inner products, scales their combinations by 1 / sqrt 64, and divides by the
  row sum. On real inputs these are the same numbers: 1 / sqrt 64 = 1/8 exactly, multiplication distributes over the
  finite sums, the row sum is a positive real, and e · (1 / L) = e / L.

  The proof: the kernel's run is read off the generated frame (what each grid point leaves, by induction over the
  points for the kept tables; the tiles cover the two result arrays; the reshapes around the launch re-index heads),
  the reference's run off its generated run, both in the vocabulary of one specification, whose two arrangements are
  proved equal on real features; the precondition makes every query and key feature real.
-/
import proofs.«411658_j88433376624754_3_alg».proof.Defs
import proofs.«411658_j88433376624754_3_alg».proof.Proof.Gen.Kernel
import proofs.«411658_j88433376624754_3_alg».proof.Proof.Gen.Kernel.Frame
import proofs.«411658_j88433376624754_3_alg».proof.Proof.Gen.KernelIdeal
import proofs.«411658_j88433376624754_3_alg».proof.Proof.Gen.KernelIdeal.Frame
import proofs.«411658_j88433376624754_3_alg».proof.Proof.Gen.ReferenceIdeal
import proofs.«411658_j88433376624754_3_alg».proof.Proof.Gen.Pre_finite_inputs
import proofs.«411658_j88433376624754_3_alg».proof.Proof.Spec
import proofs.«411658_j88433376624754_3_alg».proof.Proof.Finite
import proofs.«411658_j88433376624754_3_alg».proof.Proof.KernelRun
import proofs.«411658_j88433376624754_3_alg».proof.Proof.RefRun
import Idealize.ShloMosaic.Adequacy
import Idealize.ShloMosaic.Init

noncomputable section

namespace Cert.Proof

open Idealize.ShloMosaic Idealize.SL.Sem Cert.CAttn

/-! ## The two arrangements agree on arrays of real features -/

theorem probs_eq (Qr Qi Kr Ki : S4.Idx → EReal)
    (hQr : ∀ i, ∃ r : ℝ, Qr i = (r : EReal)) (hQi : ∀ i, ∃ r : ℝ, Qi i = (r : EReal))
    (hKr : ∀ i, ∃ r : ℝ, Kr i = (r : EReal)) (hKi : ∀ i, ∃ r : ℝ, Ki i = (r : EReal)) :
    probs attnK Qr Qi Kr Ki = probs attnR Qr Qi Kr Ki := by
  funext i
  unfold probs
  exact congrFun (attnK_eq_attnR (rowOf Qr (i 0) (i 1) (i 2)) (rowOf Qi (i 0) (i 1) (i 2)) (keysOf Kr (i 0) (i 1)) (keysOf Ki (i 0) (i 1))
    (fun d => hQr _) (fun d => hQi _) (fun k d => hKr _) (fun k d => hKi _)) (i 3)

theorem outs_eq (Qr Qi Kr Ki Vr Vi : S4.Idx → EReal)
    (hQr : ∀ i, ∃ r : ℝ, Qr i = (r : EReal)) (hQi : ∀ i, ∃ r : ℝ, Qi i = (r : EReal))
    (hKr : ∀ i, ∃ r : ℝ, Kr i = (r : EReal)) (hKi : ∀ i, ∃ r : ℝ, Ki i = (r : EReal)) :
    outs attnK Qr Qi Kr Ki Vr Vi = outs attnR Qr Qi Kr Ki Vr Vi := by
  funext i
  unfold outs
  exact congrArg (fun p => mix p (keysOf (if (i 0).val = 0 then Vr else Vi) (i 1) (i 2)) (i 4))
    (attnK_eq_attnR (rowOf Qr (i 1) (i 2) (i 3)) (rowOf Qi (i 1) (i 2) (i 3)) (keysOf Kr (i 1) (i 2)) (keysOf Ki (i 1) (i 2))
      (fun d => hQr _) (fun d => hQi _) (fun k d => hKr _) (fun k d => hKi _))

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.CAttn.Ref.run m ρ)

/-- The idealization rewrote nothing. -/
theorem preserves : Cert.preserves_Kernel_KernelIdeal := trivial

/-- Both programs end with the specification's weights and mixed values of arguments that agree: the kernel in the
    folded arrangement, the reference in the textbook one, equal because the precondition makes the query and key
    features real. -/
theorem algebraic : Cert.algebraic_KernelIdeal_ReferenceIdeal := by
  intro m ρ m' ρ' hpre hagree
  refine ⟨fun c => outs attnK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => probs attnK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Attn.run m ρ, ?_⟩
  refine (θ_run Cert.ReferenceIdeal.defs _ _).mono (fun _ h c => ?_) (Cert.CAttn.Ref.run m' ρ')
  obtain ⟨h31, h26, hargs⟩ := h c
  obtain ⟨a0, a1, a2, a3, a4, a5⟩ := hagree c
  obtain ⟨r0, r1, r2, r3⟩ := Cert.CAttn.Finite.real_of_fn _ _ _ _ _ _ (hpre c)
  refine ⟨h31.trans ?_, h26.trans ?_, hargs⟩
  · rw [a0, a1, a2, a3, a4, a5]
    exact (outs_eq _ _ _ _ _ _ r0 r1 r2 r3).symm
  · rw [a0, a1, a2, a3]
    exact (probs_eq _ _ _ _ r0 r1 r2 r3).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
